-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S16777216x2 .f32) (main_arg1 : IVec S16777216 32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_c_0 : IVec S_ 32 := constantI S_ 32 0#32
  let main_v4 : IVec S16777216 32 := broadcastInDim S16777216 ![] bcast_S_S16777216 main_c_0
  let main_v5 : IVec S16777216 1 := cmpi .sge main_arg1 main_v4
  let main_c_1 : IVec S_ 32 := constantI S_ 32 2#32
  let main_v6 : IVec S16777216 32 := broadcastInDim S16777216 ![] bcast_S_S16777216 main_c_1
  let main_v7 : IVec S16777216 1 := cmpi .slt main_arg1 main_v6
  let main_v8 : IVec S16777216 1 := andi main_v5 main_v7
  let main_c_2 : IVec S_ 1 := constantI S_ 1 1#1
  let main_v9 : IVec S_ 1 := (fun x v => Host.reduce IntOp.andi x v reducesTo_S16777216_S_d0 h_S_) main_v8 main_c_2
  let main_v10 : IVec S_ 1 := andi main_v3 main_v9
  main_v10
-- ==== Kernel.lean ====
abbrev S16777216x2 : Shape := ⟨2, ![16777216, 2]⟩
abbrev S16777216 : Shape := ⟨1, ![16777216]⟩
abbrev S16777216x1 : Shape := ⟨2, ![16777216, 1]⟩
abbrev S131072x128 : Shape := ⟨2, ![131072, 128]⟩
abbrev S2x8x128 : Shape := ⟨3, ![2, 8, 128]⟩
abbrev S128x128 : Shape := ⟨2, ![128, 128]⟩
abbrev S1x8x128 : Shape := ⟨3, ![1, 8, 128]⟩
abbrev S1x1 : Shape := ⟨2, ![1, 1]⟩
abbrev S128 : Shape := ⟨1, ![128]⟩
abbrev S1x128 : Shape := ⟨2, ![1, 128]⟩
abbrev S1 : Shape := ⟨1, ![1]⟩
abbrev S8x128 : Shape := ⟨2, ![8, 128]⟩
abbrev S1x1x1 : Shape := ⟨3, ![1, 1, 1]⟩
abbrev S_ : Shape := ⟨0, ![]⟩

abbrev nBuf : Space → Nat
  | .hbm => 25
  | .vmem => 12
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S16777216x1, .f32⟩
  | .hbm, ⟨3, _⟩ => ⟨S16777216, .f32⟩
  | .hbm, ⟨4, _⟩ => ⟨S131072x128, .f32⟩
  | .hbm, ⟨5, _⟩ => ⟨S16777216x1, .f32⟩
  | .hbm, ⟨6, _⟩ => ⟨S16777216, .f32⟩
  | .hbm, ⟨7, _⟩ => ⟨S131072x128, .f32⟩
  | .hbm, ⟨8, _⟩ => ⟨S131072x128, .i32⟩
  | .hbm, ⟨9, _⟩ => ⟨S2x8x128, .f32⟩
  | .hbm, ⟨10, _⟩ => ⟨S2x8x128, .f32⟩
  | .hbm, ⟨11, _⟩ => ⟨S1x1x1, .f32⟩
  | .hbm, ⟨12, _⟩ => ⟨S_, .f32⟩
  | .hbm, ⟨13, _⟩ => ⟨S1x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1x1, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .i32⟩
  | .local _ .vmem, ⟨5, _⟩ => ⟨S128x128, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | .local _ .vmem, ⟨11, _⟩ => ⟨S1x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 512], ![false, false]⟩

def k0_cond2 (i : grid0.Coords) : BitVec 1 :=
  let arg1 : BitVec 32 := BitVec.ofNat 32 (i 1).val
  let c511_i32 : BitVec 32 := 511#32
  let v49 : BitVec 1 := Scalar.cmpi .eq arg1 c511_i32
  let v50 : BitVec 32 := Scalar.extui v49
  let c0_i32_22 : BitVec 32 := 0#32
  let v51 : BitVec 1 := Scalar.cmpi .ne v50 c0_i32_22
  v51

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S16777216x2_S16777216x1_0_0 : S16777216x2.Slices ![0, 0] S16777216x1
  shapeCasts_S16777216x1_S16777216 : S16777216x1.ShapeCasts S16777216
  shapeCasts_S16777216_S131072x128 : S16777216.ShapeCasts S131072x128
  slices_S16777216x2_S16777216x1_0_1 : S16777216x2.Slices ![0, 1] S16777216x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128_S128 : S128x128.Reduces [0] S128
  shapeCasts_S128_S1x128 : S128.ShapeCasts S1x128
  reduces_S1x128_S1 : S1x128.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S131072x128.size a
  hwx0_0 : ∀ i : grid0.Coords, EltTy.bits .f32 = 32 ∨ (Rect.block (s := S131072x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S131072x128.size a
  hwx0_1 : ∀ i : grid0.Coords, EltTy.bits .f32 = 32 ∨ (Rect.block (s := S131072x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S131072x128.size a
  hwx0_2 : ∀ i : grid0.Coords, EltTy.bits .i32 = 32 ∨ (Rect.block (s := S131072x128) S128x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v2) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16777216x2 : Shape := ⟨2, ![16777216, 2]⟩
abbrev S16777216 : Shape := ⟨1, ![16777216]⟩
abbrev S_ : Shape := ⟨0, ![]⟩
abbrev S16777216x1 : Shape := ⟨2, ![16777216, 1]⟩
abbrev S16777216x1x1 : Shape := ⟨3, ![16777216, 1, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S_, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S16777216x1, .f32⟩
  | .hbm, ⟨8, _⟩ => ⟨S16777216x2, .f32⟩
  | .hbm, ⟨9, _⟩ => ⟨S16777216x2, .f32⟩
  | .hbm, ⟨10, _⟩ => ⟨S16777216x2, .f32⟩
  | .hbm, ⟨11, _⟩ => ⟨S_, .f32⟩
  | .hbm, ⟨12, _⟩ => ⟨S16777216, .f32⟩
  | .hbm, ⟨13, _⟩ => ⟨S16777216x1, .f32⟩
  | .hbm, ⟨14, _⟩ => ⟨S16777216x1, .f32⟩
  | .hbm, ⟨15, _⟩ => ⟨S16777216x2, .f32⟩
  | .hbm, ⟨16, _⟩ => ⟨S16777216x2, .f32⟩
  | .hbm, ⟨17, _⟩ => ⟨S16777216x1, .i32⟩
  | .hbm, ⟨18, _⟩ => ⟨S_, .i32⟩
  | .hbm, ⟨19, _⟩ => ⟨S16777216x1, .i32⟩
  | .hbm, ⟨20, _⟩ => ⟨S16777216x1, .i1⟩
  | .hbm, ⟨21, _⟩ => ⟨S_, .i32⟩
  | .hbm, ⟨22, _⟩ => ⟨S16777216x1, .i32⟩
  | .hbm, ⟨23, _⟩ => ⟨S16777216x1, .i32⟩
  | .hbm, ⟨24, _⟩ => ⟨S16777216x1, .i32⟩
  | .hbm, ⟨25, _⟩ => ⟨S16777216x1x1, .i32⟩
  | .hbm, ⟨26, _⟩ => ⟨S1, .i32⟩
  | .hbm, ⟨27, _⟩ => ⟨S_, .i32⟩
  | .hbm, ⟨28, _⟩ => ⟨S16777216x1x1, .i32⟩
  | .hbm, ⟨29, _⟩ => ⟨S16777216x1x1, .i1⟩
  | .hbm, ⟨30, _⟩ => ⟨S1x1x1, .i32⟩
  | .hbm, ⟨31, _⟩ => ⟨S16777216x1x1, .i32⟩
  | .hbm, ⟨32, _⟩ => ⟨S16777216x1x1, .i1⟩
  | .hbm, ⟨33, _⟩ => ⟨S16777216x1x1, .i1⟩
  | .hbm, ⟨34, _⟩ => ⟨S_, .i1⟩
  | .hbm, ⟨35, _⟩ => ⟨S16777216x1, .i1⟩
  | .hbm, ⟨36, _⟩ => ⟨S16777216x1, .f32⟩
  | .hbm, ⟨37, _⟩ => ⟨S_, .f32⟩
  | .hbm, ⟨38, _⟩ => ⟨S16777216x1, .f32⟩
  | .hbm, ⟨39, _⟩ => ⟨S16777216x1, .f32⟩
  | .hbm, ⟨40, _⟩ => ⟨S16777216, .f32⟩
  | .hbm, ⟨41, _⟩ => ⟨S16777216, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16777216x1, .f32⟩
  | .hbm, ⟨47, _⟩ => ⟨S16777216, .f32⟩
  | .hbm, ⟨48, _⟩ => ⟨S16777216x1, .f32⟩
  | .hbm, ⟨49, _⟩ => ⟨S16777216, .f32⟩
  | .hbm, ⟨50, _⟩ => ⟨S_, .i32⟩
  | .hbm, ⟨51, _⟩ => ⟨S16777216, .i32⟩
  | .hbm, ⟨52, _⟩ => ⟨S16777216, .i1⟩
  | .hbm, ⟨53, _⟩ => ⟨S16777216, .i1⟩
  | .hbm, ⟨54, _⟩ => ⟨S16777216, .i1⟩
  | .hbm, ⟨55, _⟩ => ⟨S16777216, .i1⟩
  | .hbm, ⟨56, _⟩ => ⟨S16777216, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_v17 : Ref sig .tc := ⟨.hbm, 58, rfl⟩
abbrev main_cst_2 : Ref sig .tc := ⟨.hbm, 59, rfl⟩
abbrev main_v18 : Ref sig .tc := ⟨.hbm, 60, rfl⟩

abbrev nD : Nat := 1
abbrev τ : Topo := Topo.v7x

variable {F : FTy → Type} [FloatOps F]

class Facts₀ : Prop where
  reducesTo_S16777216x2_S16777216_d1 : S16777216x2.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x2_0_1 : S16777216x1.BroadcastsInDim S16777216x2 (![0, 1] : Fin 2 → Fin S16777216x2.rank)
  bcast_S_S16777216x1 : S_.BroadcastsInDim S16777216x1 (![] : Fin 0 → Fin S16777216x1.rank)
  shapeCasts_S16777216x1_S16777216x1x1 : S16777216x1.ShapeCasts S16777216x1x1
  bcast_S_S16777216x1x1 : S_.BroadcastsInDim S16777216x1x1 (![] : Fin 0 → Fin S16777216x1x1.rank)
  bcast_S1_S1x1x1_2 : S1.BroadcastsInDim S1x1x1 (![2] : Fin 1 → Fin S1x1x1.rank)
  bcast_S1x1x1_S16777216x1x1_0_1_2 : S1x1x1.BroadcastsInDim S16777216x1x1 (![0, 1, 2] : Fin 3 → Fin S16777216x1x1.rank)
  reducesTo_S16777216x1x1_S16777216x1_d2 : S16777216x1x1.ReducesTo [2] S16777216x1
  shapeCasts_S16777216x1_S16777216 : S16777216x1.ShapeCasts S16777216
  reducesTo_S16777216_S_d0 : S16777216.ReducesTo [0] S_
  slices_S16777216x2_S16777216x1_0_0 : S16777216x2.Slices ![0, 0] S16777216x1
  slices_S16777216x2_S16777216x1_0_1 : S16777216x2.Slices ![0, 1] S16777216x1
  gather_S16777216x2_S16777216x1x1_S16777216x1_n_1_0_0_1_2_11_wf : GatherDims.WF S16777216x2 S16777216x1x1 S16777216x1 [] [1] [0] [1] [0] 2 ![1, 1]

variable [Facts₀]

def gather_S16777216x2_S16777216x1x1_S16777216x1_n_1_0_0_1_2_11 : GatherDims S16777216x2 S16777216x1x1 S16777216x1 where
  offsetDims := []
  collapsedSliceDims := [1]
  operandBatchingDims := [0]
  startIndicesBatchingDims := [0]
  startIndexMap := [1]
  indexVectorDim := 2
  sliceSizes := ![1, 1]
  wf := gather_S16777216x2_S16777216x1x1_S16777216x1_n_1_0_0_1_2_11_wf

class Facts : Prop extends Facts₀ where

variable [Facts]
-- ==== Proof.KPieces.lean ====
/-
  What each control case of the kernel body leaves in the two carried accumulators and, at a half's last step,
  in the two output blocks, as pure terms of the body's arithmetic (the payloads of its stores):
  the first step of a half stores zero and then adds the block's sum; a later step adds the block's sum to what
  the step before left; the last step also writes the accumulator, masked to entry (0, 0), to the output block.
-/
import proofs.«420999_j1589137899697_3_alg».proof.Proof.Gen.KernelIdeal.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]

/-- The rank-2 zero offsets, spelt as a literal vector, are the constant zero function. -/
private theorem hz2 : (![0, 0] : Fin 2 → Nat) = fun _ => 0 := funext fun a => by fin_cases a <;> rfl

/-- The same at rank 3 (the output blocks). -/
private theorem hz3 : (![0, 0, 0] : Fin 3 → Nat) = fun _ => 0 := funext fun a => by fin_cases a <;> rfl

/-- First step of a half: the loss accumulator is reset to zero, then the block's sum is added. -/
theorem sout_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S128x128 .f32) (x1 : Vec F S128x128 .f32) (x2 : Vec F S128x128 .i32) :
    sout0_A_0 c i arg2 harg2 arg3 harg3 arg4 harg4 arg5 harg5 arg6 harg6 arg7 harg7 arg8 harg8 hc0 hc1 x0 x1 x2 = k0_pay1 (k0_pay9 x0 x1 x2) (k0_pay11 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, View.ld_unit_zero (S := S128x128) hz2]

/-- First step of a half: the same for the hit accumulator. -/
theorem sout_A_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S128x128 .f32) (x1 : Vec F S128x128 .f32) (x2 : Vec F S128x128 .i32) :
    sout0_A_1 c i arg2 harg2 arg3 harg3 arg4 harg4 arg5 harg5 arg6 harg6 arg7 harg7 arg8 harg8 hc0 hc1 x0 x1 x2 = k0_pay2 (k0_pay10 x0 x1 x2) (k0_pay12 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, View.ld_unit_zero (S := S128x128) hz2]

/-- A middle step: the block's sum is added to what the step before left. -/
theorem sout_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S128x128 .f32) (x1 : Vec F S128x128 .f32) (x2 : Vec F S128x128 .i32) (xs0 : Vec F S1x1 .f32) (xs1 : Vec F S1x1 .f32) :
    sout0_B_0 c i arg2 harg2 arg3 harg3 arg4 harg4 arg5 harg5 arg6 harg6 arg7 harg7 arg8 harg8 hc0 hc1 x0 x1 x2 xs0 xs1 = k0_pay1 (k0_pay9 x0 x1 x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, View.ld_unit_zero (S := S128x128) hz2, harg7.read_unread, View.ld_unit_zero (S := S1x1) hz2]

theorem sout_B_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S128x128 .f32) (x1 : Vec F S128x128 .f32) (x2 : Vec F S128x128 .i32) (xs0 : Vec F S1x1 .f32) (xs1 : Vec F S1x1 .f32) :
    sout0_B_1 c i arg2 harg2 arg3 harg3 arg4 harg4 arg5 harg5 arg6 harg6 arg7 harg7 arg8 harg8 hc0 hc1 x0 x1 x2 xs0 xs1 = k0_pay2 (k0_pay10 x0 x1 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, View.ld_unit_zero (S := S128x128) hz2, harg8.read_unread, View.ld_unit_zero (S := S1x1) hz2]

/-- The last step of a half: the accumulators as at a middle step … -/
theorem sout_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S128x128 .f32) (x1 : Vec F S128x128 .f32) (x2 : Vec F S128x128 .i32) (xs0 : Vec F S1x1 .f32) (xs1 : Vec F S1x1 .f32) :
    sout0_C_0 c i arg2 harg2 arg3 harg3 arg4 harg4 arg5 harg5 arg6 harg6 arg7 harg7 arg8 harg8 hc0 hc1 x0 x1 x2 xs0 xs1 = k0_pay1 (k0_pay9 x0 x1 x2) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, View.ld_unit_zero (S := S128x128) hz2, harg7.read_unread, View.ld_unit_zero (S := S1x1) hz2]

theorem sout_C_1 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S128x128 .f32) (x1 : Vec F S128x128 .f32) (x2 : Vec F S128x128 .i32) (xs0 : Vec F S1x1 .f32) (xs1 : Vec F S1x1 .f32) :
    sout0_C_1 c i arg2 harg2 arg3 harg3 arg4 harg4 arg5 harg5 arg6 harg6 arg7 harg7 arg8 harg8 hc0 hc1 x0 x1 x2 xs0 xs1 = k0_pay2 (k0_pay10 x0 x1 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, View.ld_unit_zero (S := S128x128) hz2, harg8.read_unread, View.ld_unit_zero (S := S1x1) hz2]

/-- … and each output block is its accumulator's final value at entry (0, 0), zero elsewhere. -/
theorem out_C_3 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S128x128 .f32) (x1 : Vec F S128x128 .f32) (x2 : Vec F S128x128 .i32) (xs0 : Vec F S1x1 .f32) (xs1 : Vec F S1x1 .f32) :
    out0_C_3 c i arg2 harg2 arg3 harg3 arg4 harg4 arg5 harg5 arg6 harg6 arg7 harg7 arg8 harg8 hc0 hc1 x0 x1 x2 xs0 xs1 = k0_pay4 (k0_pay1 (k0_pay9 x0 x1 x2) xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readCov_unit_zero (S := S1x1) _ hz2, View.readAt_eq_ld, harg2.read_unread, harg3.read_unread, harg4.read_unread, View.ld_unit_zero (S := S128x128) hz2, harg7.read_unread, View.ld_unit_zero (S := S1x1) hz2]

theorem out_C_4 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S128x128 .f32) (x1 : Vec F S128x128 .f32) (x2 : Vec F S128x128 .i32) (xs0 : Vec F S1x1 .f32) (xs1 : Vec F S1x1 .f32) :
    out0_C_4 c i arg2 harg2 arg3 harg3 arg4 harg4 arg5 harg5 arg6 harg6 arg7 harg7 arg8 harg8 hc0 hc1 x0 x1 x2 xs0 xs1 = k0_pay5 (k0_pay2 (k0_pay10 x0 x1 x2) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readCov_unit_zero (S := S1x1) _ hz2, View.readAt_eq_ld, harg2.read_unread, harg3.read_unread, harg4.read_unread, View.ld_unit_zero (S := S128x128) hz2, harg8.read_unread, View.ld_unit_zero (S := S1x1) hz2]

end Cert.KernelIdeal.Val

end
-- ==== Proof.Spec.lean ====
/-
  The mathematics of the two results, over the extended reals, as functions of the two argument arrays:
  the logits `x : [E, 2]` and the labels `l : [E]`, `E = 16777216` edges.

  Per edge `e` with logits `a = x[e,0]`, `b = x[e,1]` and label `lb = l[e]`:
    `lse a b = max a b + log (exp (a - max a b) + exp (b - max a b))`   (the two-class log-sum-exp),
    `nll a b lb = lse a b - a` when `lb = 0`, else `lse a b - b`      (the negative log-likelihood of the labelled class),
    `hit a b lb = [a > b]` when `lb = 0`, else `[a < b]`             (1 when the strictly larger logit is the labelled one).
  The loss is the mean of `nll` over the edges and the accuracy the mean of `hit`: the sums divided by `E`.

  The edges are laid out row-major as 1024 blocks of 128 rows of 128 lanes: edge `(t·128 + row)·128 + lane` is
  lane `lane` of row `row` of block `t`; blocks 0–511 are the first half, 512–1023 the second.
-/
import Idealize.ShloMosaic.PureOps.Ideal
import Idealize.ShloMosaic.Lib.ValueIdx

noncomputable section

open scoped BigOperators

namespace Cert.Loss

open Idealize.ShloMosaic Idealize.ShloMosaic.ValueIdx

/-- The logits' shape, the labels' shape, and the scalar shape. -/
abbrev SX : Shape := ⟨2, ![16777216, 2]⟩
abbrev SL : Shape := ⟨1, ![16777216]⟩
abbrev S0 : Shape := ⟨0, ![]⟩

/-- The two-class log-sum-exp, shifted by the larger logit. -/
def lse (a b : EReal) : EReal :=
  max a b + Ideal.log (Ideal.exp (a - max a b) + Ideal.exp (b - max a b))

/-- The negative log-likelihood of the labelled class: label 0 reads the first logit, any other label the second. -/
def nll (a b : EReal) (lb : BitVec 32) : EReal :=
  Scalar.select (IntOp.cmpi .eq lb 0#32) (lse a b - a) (lse a b - b)

/-- One when the labelled class has the strictly larger logit, else zero (a tie counts for neither label). -/
def hit (a b : EReal) (lb : BitVec 32) : EReal :=
  Scalar.select (IntOp.cmpi .eq lb 0#32)
    (Scalar.select (Ideal.cmp .ogt a b) (Ideal.ofBits .f32 0x3F800000#32) (Ideal.ofBits .f32 0x00000000#32))
    (Scalar.select (Ideal.cmp .olt a b) (Ideal.ofBits .f32 0x3F800000#32) (Ideal.ofBits .f32 0x00000000#32))

section
variable (x : SX.Idx → EReal) (l : SL.Idx → BitVec 32)

/-- Edge `e`'s negative log-likelihood and hit, read off the arrays. -/
def nllAt (e : Fin 16777216) : EReal := nll (x (ix2 e (0 : Fin 2))) (x (ix2 e (1 : Fin 2))) (l (ix1 e))
def hitAt (e : Fin 16777216) : EReal := hit (x (ix2 e (0 : Fin 2))) (x (ix2 e (1 : Fin 2))) (l (ix1 e))

/-- The edge at lane `lane` of row `row` of block `t`. -/
def edgeOf (t : Fin 1024) (row lane : Fin 128) : Fin 16777216 :=
  ⟨(t.val * 128 + row.val) * 128 + lane.val, by have := t.isLt; have := row.isLt; have := lane.isLt; omega⟩

/-- One block's sums: over the rows first, then over the lanes. -/
def blockLoss (t : Fin 1024) : EReal := ∑ lane : Fin 128, ∑ row : Fin 128, nllAt x l (edgeOf t row lane)
def blockHit (t : Fin 1024) : EReal := ∑ lane : Fin 128, ∑ row : Fin 128, hitAt x l (edgeOf t row lane)

/-- The block of half `h` at step `i`. -/
def blockOf (h : Fin 2) (i : Fin 512) : Fin 1024 := ⟨h.val * 512 + i.val, by have := h.isLt; have := i.isLt; omega⟩

/-- One half's sums over its 512 blocks. -/
def halfLoss (h : Fin 2) : EReal := ∑ i : Fin 512, blockLoss x l (blockOf h i)
def halfHit (h : Fin 2) : EReal := ∑ i : Fin 512, blockHit x l (blockOf h i)

/-- The sums over all edges. -/
def lossSum : EReal := ∑ e : Fin 16777216, nllAt x l e
def hitSum : EReal := ∑ e : Fin 16777216, hitAt x l e

/-- The two results: the sums divided by the number of edges (the f32 word `0x4B800000` is 16777216). -/
def lossOut : S0.Idx → EReal := fun _ => Ideal.div (lossSum x l) (Ideal.ofBits .f32 0x4B800000#32)
def accOut : S0.Idx → EReal := fun _ => Ideal.div (hitSum x l) (Ideal.ofBits .f32 0x4B800000#32)

end

end Cert.Loss

end
-- ==== Proof.KPayload.lean ====
/-
  The body's arithmetic read at an index, over the extended reals: a block's two sums (over the 128 rows, then
  over the 128 lanes) of the per-edge negative log-likelihood and hit; the accumulator update (old value plus the
  block's sum); the zero it is reset to; and the output block (the accumulator at entry (0, 0), zero elsewhere).
-/
import proofs.«420999_j1589137899697_3_alg».proof.Proof.Gen.KernelIdeal.Skeleton
import proofs.«420999_j1589137899697_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Val

open Idealize.ShloMosaic Idealize.ShloMosaic.ValueIdx
open Cert.KernelIdeal Cert.KernelIdeal.Gen

/-! ## The two reductions and the casts between them, over any block -/

/-- The sum over the rows: the first reduction at lane `lane` is the sum over the 128 rows of that lane's entries. -/
theorem rowSum_apply (w : FVec Ideal S128x128 .f32) (h : S128x128.Reduces [0] S128) (hφ : FKind.Formats .f32)
    (hacc : (0x00000000#32 : BitVec 32) = FKind.add.neutral .f32 hφ) (lane : Fin 128) :
    multiReduction .add [0] S128 w 0x00000000#32 h hφ hacc (ix1 lane) = ∑ row : Fin 128, w (ix2 row lane) := by
  refine (Ideal.multiReduction_add_single w _ h hφ hacc (ix1 lane)).trans ?_
  refine Finset.sum_congr rfl fun row _ => congrArg w ?_
  funext a
  match a with
  | ⟨0, _⟩ => rfl
  | ⟨1, _⟩ => rfl

/-- The sum over the lanes: the second reduction at its one entry is the sum over the 128 lanes of the row of sums. -/
theorem laneSum_apply (w : FVec Ideal S1x128 .f32) (h : S1x128.Reduces [1] S1) (hφ : FKind.Formats .f32)
    (hacc : (0x00000000#32 : BitVec 32) = FKind.add.neutral .f32 hφ) (u : Fin 1) :
    multiReduction .add [1] S1 w 0x00000000#32 h hφ hacc (ix1 u) = ∑ lane : Fin 128, w (ix2 u lane) := by
  refine (Ideal.multiReduction_add_single w _ h hφ hacc (ix1 u)).trans ?_
  refine Finset.sum_congr rfl fun lane _ => congrArg w ?_
  funext a
  match a with
  | ⟨0, _⟩ => rfl
  | ⟨1, _⟩ => rfl

/-- A block's two-stage sum: rows first, then lanes, read at the one entry of the result. -/
theorem blockSum_apply (w : FVec Ideal S128x128 .f32) (h1 : S128x128.Reduces [0] S128) (h2 : S128.ShapeCasts S1x128)
    (h3 : S1x128.Reduces [1] S1) (h4 : S1.ShapeCasts S1x1) (hφ : FKind.Formats .f32)
    (hacc : (0x00000000#32 : BitVec 32) = FKind.add.neutral .f32 hφ) (j : S1x1.Idx) :
    shapeCast S1x1 (multiReduction .add [1] S1
        (shapeCast S1x128 (multiReduction .add [0] S128 w 0x00000000#32 h1 hφ hacc) h2) 0x00000000#32 h3 hφ hacc) h4 j
      = ∑ lane : Fin 128, ∑ row : Fin 128, w (ix2 row lane) := by
  obtain ⟨u, v, rfl⟩ : ∃ (u : Fin 1) (v : Fin 1), j = ix2 u v := ⟨j 0, j 1, eq_ix2 j⟩
  refine (shapeCast_a_1a_apply _ h4 u v).trans ?_
  refine (laneSum_apply _ h3 hφ hacc v).trans ?_
  refine Finset.sum_congr rfl fun lane _ => ?_
  refine (shapeCast_a_1a_apply _ h2 v lane).trans ?_
  exact rowSum_apply w h1 hφ hacc lane

/-- A block's loss sum: at the accumulator's one entry, the sum over lanes of the sum over rows of the per-edge
    negative log-likelihood of the three loaded blocks. -/
theorem pay9_apply (x0 x1 : Vec Ideal S128x128 .f32) (x2 : Vec Ideal S128x128 .i32) (j : S1x1.Idx) :
    k0_pay9 (F := Ideal) x0 x1 x2 j
      = ∑ lane : Fin 128, ∑ row : Fin 128, Cert.Loss.nll (x0 (ix2 row lane)) (x1 (ix2 row lane)) (x2 (ix2 row lane)) := by
  unfold k0_pay9
  refine (blockSum_apply _ _ _ _ _ _ _ j).trans ?_
  refine Finset.sum_congr rfl fun lane _ => Finset.sum_congr rfl fun row _ => ?_
  unfold k0_pay6 k0_pay7 k0_pay8
  simp only [shapeCast_self]
  rfl

/-- A block's hit count, likewise. -/
theorem pay10_apply (x0 x1 : Vec Ideal S128x128 .f32) (x2 : Vec Ideal S128x128 .i32) (j : S1x1.Idx) :
    k0_pay10 (F := Ideal) x0 x1 x2 j
      = ∑ lane : Fin 128, ∑ row : Fin 128, Cert.Loss.hit (x0 (ix2 row lane)) (x1 (ix2 row lane)) (x2 (ix2 row lane)) := by
  unfold k0_pay10
  refine (blockSum_apply _ _ _ _ _ _ _ j).trans ?_
  refine Finset.sum_congr rfl fun lane _ => Finset.sum_congr rfl fun row _ => ?_
  unfold k0_pay6 k0_pay7 k0_pay8
  simp only [shapeCast_self]
  rfl

/-- The accumulator update: the old value plus the block's sum. -/
theorem pay1_apply (v31 : FVec Ideal S1x1 .f32) (v39 : Vec Ideal S1x1 .f32) (j : S1x1.Idx) :
    k0_pay1 (F := Ideal) v31 v39 j = v39 j + v31 j := by
  unfold k0_pay1
  simp only [shapeCast_self]
  rfl

theorem pay2_apply (v35 : FVec Ideal S1x1 .f32) (v44 : Vec Ideal S1x1 .f32) (j : S1x1.Idx) :
    k0_pay2 (F := Ideal) v35 v44 j = v44 j + v35 j := by
  unfold k0_pay2
  simp only [shapeCast_self]
  rfl

/-- The reset value is zero. -/
theorem pay11_apply (j : S1x1.Idx) : (k0_pay11 (F := Ideal)) j = (0 : EReal) := by
  unfold k0_pay11
  simp only [shapeCast_self]
  exact Ideal.ofBits_zero_f32

theorem pay12_apply (j : S1x1.Idx) : (k0_pay12 (F := Ideal)) j = (0 : EReal) := by
  unfold k0_pay12
  simp only [shapeCast_self]
  exact Ideal.ofBits_zero_f32

/-! ## The output block's mask -/

/-- A 32-bit word made from a natural below `2 ^ 32` is the zero word exactly when the natural is zero. -/
theorem ofNat_eq_zero_iff (n : Nat) (hn : n < 4294967296) : BitVec.ofNat 32 n = 0#32 ↔ n = 0 := by
  constructor
  · intro h
    have e := congrArg BitVec.toNat h
    rw [BitVec.toNat_ofNat] at e
    have e0 : (0#32 : BitVec 32).toNat = 0 := rfl
    rw [e0] at e
    omega
  · rintro rfl
    rfl

/-- The mask is set exactly at row 0, lane 0: both coordinate counters are compared with zero. -/
theorem mask_eq_one_iff (r : Fin 8) (q : Fin 128) : k0_pay3 (ix2 r q) = 1#1 ↔ r.val = 0 ∧ q.val = 0 := by
  unfold k0_pay3
  show IntOp.andi (IntOp.cmpi .eq (iota .tc S8x128 32 [0] iota_S8x128_d0_w32 (ix2 r q)) 0#32)
      (IntOp.cmpi .eq (iota .tc S8x128 32 [1] iota_S8x128_d1_w32 (ix2 r q)) 0#32) = 1#1 ↔ _
  rw [IntOp.andi_eq_one, IntOp.cmpi_eq, IntOp.cmpi_eq, iota_single_apply, iota_single_apply]
  show BitVec.ofNat 32 r.val = 0#32 ∧ BitVec.ofNat 32 q.val = 0#32 ↔ _
  rw [ofNat_eq_zero_iff r.val (by have := r.isLt; omega), ofNat_eq_zero_iff q.val (by have := q.isLt; omega)]

/-- The output block over any accumulator value `c` and fill value `z`: `c` at row 0, lane 0, and `z` elsewhere. -/
theorem maskedBlock_apply (c z : EReal) (h : S8x128.ShapeCasts S1x8x128) (a : Fin 1) (r : Fin 8) (q : Fin 128) :
    shapeCast S1x8x128 (select k0_pay3 (broadcast S8x128 c) (broadcast S8x128 z)) h (ix3 a r q)
      = if r.val = 0 ∧ q.val = 0 then c else z := by
  refine (shapeCast_ab_1ab_apply _ h a r q).trans ?_
  show (if k0_pay3 (ix2 r q) = 1#1 then c else z) = _
  by_cases hrq : r.val = 0 ∧ q.val = 0
  · rw [if_pos ((mask_eq_one_iff r q).2 hrq), if_pos hrq]
  · rw [if_neg (fun e => hrq ((mask_eq_one_iff r q).1 e)), if_neg hrq]

/-- The accumulator's one entry, extracted at position (0, 0). -/
theorem extract00 (v : Vec Ideal S1x1 .f32) (h : ∀ a, (![0, 0] : Fin 2 → Nat) a < S1x1.size a) :
    extractAt ![0, 0] v h = v (ix2 (0 : Fin 1) (0 : Fin 1)) := by
  unfold extractAt
  refine congrArg v ?_
  funext a
  match a with
  | ⟨0, _⟩ => rfl
  | ⟨1, _⟩ => rfl

/-- The output block: the accumulator's entry at (0, 0, 0), zero at every other entry. -/
theorem pay4_apply (v59 : Vec Ideal S1x1 .f32) (a : Fin 1) (r : Fin 8) (q : Fin 128) :
    k0_pay4 (F := Ideal) v59 (ix3 a r q) = if r.val = 0 ∧ q.val = 0 then v59 (ix2 (0 : Fin 1) (0 : Fin 1)) else (0 : EReal) := by
  unfold k0_pay4
  refine (maskedBlock_apply _ _ _ a r q).trans ?_
  rw [extract00]
  exact congrArg (fun z => if r.val = 0 ∧ q.val = 0 then v59 (ix2 (0 : Fin 1) (0 : Fin 1)) else z) Ideal.ofBits_zero_f32

theorem pay5_apply (v67 : Vec Ideal S1x1 .f32) (a : Fin 1) (r : Fin 8) (q : Fin 128) :
    k0_pay5 (F := Ideal) v67 (ix3 a r q) = if r.val = 0 ∧ q.val = 0 then v67 (ix2 (0 : Fin 1) (0 : Fin 1)) else (0 : EReal) := by
  unfold k0_pay5
  refine (maskedBlock_apply _ _ _ a r q).trans ?_
  rw [extract00]
  exact congrArg (fun z => if r.val = 0 ∧ q.val = 0 then v67 (ix2 (0 : Fin 1) (0 : Fin 1)) else z) Ideal.ofBits_zero_f32

end Cert.KernelIdeal.Val

end
-- ==== Proof.KBlocks.lean ====
/-
  The three input blocks of a grid step, read at (row, lane): the host reshapes column 0 and column 1 of the logits,
  and the labels, to 131072 rows of 128 lanes, and step `t` of the grid stages rows `128 t … 128 t + 127`; so entry
  (row, lane) of step `t`'s block is edge `(128 t + row) · 128 + lane`: its first logit, its second logit, its label.

  Two facts meet. The arrays the windows stage are, as the region finds them, the argument arrays re-indexed: a column
  of the logits (a unit-width slice), flattened, then cut into rows of 128 lanes; reading that at (R, lane) is reading
  the column at the index with the same row-major position, `R · 128 + lane`. And a block's entry (row, lane) is the
  array's entry (index₀ · 128 + row, index₁ · 128 + lane), where the index map sends step `t` to (t, 0).
-/
import proofs.«420999_j1589137899697_3_alg».proof.Proof.Gen.KernelIdeal.Frame
import proofs.«420999_j1589137899697_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Step `t`'s three staged blocks, at their literal types. -/
abbrev r0blk (c : Dev nD) (t : Fin cfg0.N) : Vec F S128x128 .f32 := iblk m c 0 t
abbrev r1blk (c : Dev nD) (t : Fin cfg0.N) : Vec F S128x128 .f32 := iblk m c 1 t
abbrev lblk (c : Dev nD) (t : Fin cfg0.N) : Vec F S128x128 .i32 := iblk m c 2 t

/-- A column of the logits, flattened and then cut into rows of 128 lanes, read at (R, lane): the column at edge
    `R · 128 + lane`. -/
theorem col_rows_apply {α : Type} (x : S16777216x2.Idx → α) (off : Fin 2 → Nat) (hs : S16777216x2.Slices off S16777216x1)
    (k : Fin 2) (h0 : off 0 = 0) (h1 : off 1 = k.val)
    (R : Fin 131072) (lane : Fin 128) (e : Fin 16777216) (he : e.val = R.val * 128 + lane.val) :
    shapeCast S131072x128 (shapeCast S16777216 (extractStridedSlice S16777216x1 off x hs) shapeCasts_S16777216x1_S16777216)
      shapeCasts_S16777216_S131072x128 (ix2 R lane) = x (ix2 e k) := by
  refine (shapeCast_apply _ shapeCasts_S16777216_S131072x128 (ix2 R lane) (ix1 e) ?_).trans ?_
  · rewrite [Shape.rowMajor_val_one, Shape.rowMajor_val_two]
    show e.val = R.val * 128 + lane.val
    exact he
  refine (shapeCast_apply _ shapeCasts_S16777216x1_S16777216 (ix1 e) (ix2 e (0 : Fin 1)) ?_).trans ?_
  · rewrite [Shape.rowMajor_val_two, Shape.rowMajor_val_one]
    show e.val * 1 + 0 = e.val
    omega
  exact extractStridedSlice_apply off x hs (ix2 e (0 : Fin 1)) (ix2 e k) (fun a => match a with
    | ⟨0, _⟩ => by show e.val = off 0 + e.val; omega
    | ⟨1, _⟩ => by show k.val = off 1 + 0; omega)

/-- The labels cut into rows of 128 lanes, read at (R, lane): the label of edge `R · 128 + lane`. -/
theorem lab_rows_apply {α : Type} (l : S16777216.Idx → α)
    (R : Fin 131072) (lane : Fin 128) (e : Fin 16777216) (he : e.val = R.val * 128 + lane.val) :
    shapeCast S131072x128 l shapeCasts_S16777216_S131072x128 (ix2 R lane) = l (ix1 e) := by
  refine shapeCast_apply _ shapeCasts_S16777216_S131072x128 (ix2 R lane) (ix1 e) ?_
  rewrite [Shape.rowMajor_val_one, Shape.rowMajor_val_two]
  show e.val = R.val * 128 + lane.val
  exact he

/-- What the host leaves in the first window's array: column 0 of the logits, flattened, in rows of 128 lanes. -/
theorem V_v2 (c : Dev nD) : (V m c main_v2 : S131072x128.Idx → Elt F .f32)
    = shapeCast S131072x128 (shapeCast S16777216 (extractStridedSlice S16777216x1 ![0, 0] (m ((c : Thread nD τ).loc main_arg0))
        slices_S16777216x2_S16777216x1_0_0) shapeCasts_S16777216x1_S16777216) shapeCasts_S16777216_S131072x128 := by
  show StableHlo.after hostOps0 (fun b => m (c, b)) (Proc.devRef .tc main_v2) = _
  after_results
  rfl

/-- … in the second window's array: column 1, the same way. -/
theorem V_v5 (c : Dev nD) : (V m c main_v5 : S131072x128.Idx → Elt F .f32)
    = shapeCast S131072x128 (shapeCast S16777216 (extractStridedSlice S16777216x1 ![0, 1] (m ((c : Thread nD τ).loc main_arg0))
        slices_S16777216x2_S16777216x1_0_1) shapeCasts_S16777216x1_S16777216) shapeCasts_S16777216_S131072x128 := by
  show StableHlo.after hostOps0 (fun b => m (c, b)) (Proc.devRef .tc main_v5) = _
  after_results
  rfl

/-- … in the third window's array: the labels in rows of 128 lanes. -/
theorem V_v6 (c : Dev nD) : (V m c main_v6 : S131072x128.Idx → Elt F .i32)
    = shapeCast S131072x128 (m ((c : Thread nD τ).loc main_arg1)) shapeCasts_S16777216_S131072x128 := by
  show StableHlo.after hostOps0 (fun b => m (c, b)) (Proc.devRef .tc main_v6) = _
  after_results
  rfl

/-- Where step `t`'s blocks sit in their arrays: every window's index map sends step `t` to block row `t`, block column 0
    (decided over the 1024 grid points). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- Entry (row, lane) of step `t`'s first block is the first logit of edge `(128 t + row) · 128 + lane`. -/
theorem r0blk_apply (c : Dev nD) (t : Fin cfg0.N) (row lane : Fin 128) (e : Fin 16777216)
    (he : e.val = (t.val * 128 + row.val) * 128 + lane.val) :
    r0blk m c t (ix2 row lane) = m ((c : Thread nD τ).loc main_arg0) (ix2 e (0 : Fin 2)) := by
  have hN : cfg0.N = 1024 := N_0
  have hR : t.val * 128 + row.val < 131072 := by have := t.isLt; have := row.isLt; omega
  have hi := (index_facts t).1
  unfold r0blk iblk
  rw [View.read_apply]
  show (V m c main_v2 : S131072x128.Idx → Elt F .f32) (((cfg0.win 0).blk t).view.emb (ix2 row lane)) = _
  have hemb : ((cfg0.win 0).blk t).view.emb (ix2 row lane) = ix2 (⟨t.val * 128 + row.val, hR⟩ : Fin 131072) lane := by
    funext a
    apply Fin.ext
    match a with
    | ⟨0, _⟩ => show win0_0.index t 0 * 128 + 1 * row.val = t.val * 128 + row.val; rw [hi.1]; omega
    | ⟨1, _⟩ => show win0_0.index t 1 * 128 + 1 * lane.val = lane.val; rw [hi.2]; omega
  refine (congrArg (V m c main_v2 : S131072x128.Idx → Elt F .f32) hemb).trans ?_
  refine (congrFun (V_v2 m c) _).trans ?_
  exact col_rows_apply _ ![0, 0] slices_S16777216x2_S16777216x1_0_0 (0 : Fin 2) rfl rfl ⟨_, hR⟩ lane e he

/-- … of its second block the second logit … -/
theorem r1blk_apply (c : Dev nD) (t : Fin cfg0.N) (row lane : Fin 128) (e : Fin 16777216)
    (he : e.val = (t.val * 128 + row.val) * 128 + lane.val) :
    r1blk m c t (ix2 row lane) = m ((c : Thread nD τ).loc main_arg0) (ix2 e (1 : Fin 2)) := by
  have hN : cfg0.N = 1024 := N_0
  have hR : t.val * 128 + row.val < 131072 := by have := t.isLt; have := row.isLt; omega
  have hi := (index_facts t).2.1
  unfold r1blk iblk
  rw [View.read_apply]
  show (V m c main_v5 : S131072x128.Idx → Elt F .f32) (((cfg0.win 1).blk t).view.emb (ix2 row lane)) = _
  have hemb : ((cfg0.win 1).blk t).view.emb (ix2 row lane) = ix2 (⟨t.val * 128 + row.val, hR⟩ : Fin 131072) lane := by
    funext a
    apply Fin.ext
    match a with
    | ⟨0, _⟩ => show win0_1.index t 0 * 128 + 1 * row.val = t.val * 128 + row.val; rw [hi.1]; omega
    | ⟨1, _⟩ => show win0_1.index t 1 * 128 + 1 * lane.val = lane.val; rw [hi.2]; omega
  refine (congrArg (V m c main_v5 : S131072x128.Idx → Elt F .f32) hemb).trans ?_
  refine (congrFun (V_v5 m c) _).trans ?_
  exact col_rows_apply _ ![0, 1] slices_S16777216x2_S16777216x1_0_1 (1 : Fin 2) rfl rfl ⟨_, hR⟩ lane e he

/-- … and of its third block the label of that edge. -/
theorem lblk_apply (c : Dev nD) (t : Fin cfg0.N) (row lane : Fin 128) (e : Fin 16777216)
    (he : e.val = (t.val * 128 + row.val) * 128 + lane.val) :
    lblk m c t (ix2 row lane) = m ((c : Thread nD τ).loc main_arg1) (ix1 e) := by
  have hN : cfg0.N = 1024 := N_0
  have hR : t.val * 128 + row.val < 131072 := by have := t.isLt; have := row.isLt; omega
  have hi := (index_facts t).2.2
  unfold lblk iblk
  rw [View.read_apply]
  show (V m c main_v6 : S131072x128.Idx → Elt F .i32) (((cfg0.win 2).blk t).view.emb (ix2 row lane)) = _
  have hemb : ((cfg0.win 2).blk t).view.emb (ix2 row lane) = ix2 (⟨t.val * 128 + row.val, hR⟩ : Fin 131072) lane := by
    funext a
    apply Fin.ext
    match a with
    | ⟨0, _⟩ => show win0_2.index t 0 * 128 + 1 * row.val = t.val * 128 + row.val; rw [hi.1]; omega
    | ⟨1, _⟩ => show win0_2.index t 1 * 128 + 1 * lane.val = lane.val; rw [hi.2]; omega
  refine (congrArg (V m c main_v6 : S131072x128.Idx → Elt F .i32) hemb).trans ?_
  refine (congrFun (V_v6 m c) _).trans ?_
  exact lab_rows_apply _ ⟨_, hR⟩ lane e he

end Cert.KernelIdeal.Val

end
-- ==== Proof.KAccum.lean ====
/-
  The two accumulators, grid step by grid step. Step `t` (of 1024) works on block `t` of the edges; write `L t` for the
  block's sum of negative log-likelihoods and `H t` for its hit count. At the first step of a half (`t % 512 = 0`) the
  accumulators are reset and hold `0 + L t`, `0 + H t`; at every later step they hold what the step before left plus
  `L t`, `H t`. So after step `t` they hold the sums of the blocks `t - t % 512 … t` of the half so far, and the
  half's last step (`t % 512 = 511`) writes the whole half's sums to entry (0, 0) of its output block, zero elsewhere.
-/
import proofs.«420999_j1589137899697_3_alg».proof.Proof.KPieces
import proofs.«420999_j1589137899697_3_alg».proof.Proof.KPayload
import proofs.«420999_j1589137899697_3_alg».proof.Proof.KBlocks
import proofs.«420999_j1589137899697_3_alg».proof.Proof.Spec

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The two argument arrays on a core: the logits and the labels. -/
abbrev X (c : Dev nD) : Cert.Loss.SX.Idx → EReal := m ((c : Thread nD τ).loc main_arg0)
abbrev Lb (c : Dev nD) : Cert.Loss.SL.Idx → BitVec 32 := m ((c : Thread nD τ).loc main_arg1)

/-- A grid step's number as a block number. -/
def blkOf (t : Fin cfg0.N) : Fin 1024 := ⟨t.val, lt_of_lt_of_eq t.isLt N_0⟩

/-- The block sums of step `t`. -/
abbrev L (c : Dev nD) (t : Fin cfg0.N) : EReal := Cert.Loss.blockLoss (X m c) (Lb m c) (blkOf t)
abbrev H (c : Dev nD) (t : Fin cfg0.N) : EReal := Cert.Loss.blockHit (X m c) (Lb m c) (blkOf t)

/-- The body's block sums of the three staged blocks are the block's sums over the edges. -/
theorem pay9_blocks (c : Dev nD) (t : Fin cfg0.N) (j : S1x1.Idx) :
    k0_pay9 (F := Ideal) (r0blk m c t) (r1blk m c t) (lblk m c t) j = L m c t := by
  refine (pay9_apply (r0blk m c t) (r1blk m c t) (lblk m c t) j).trans ?_
  unfold L Cert.Loss.blockLoss Cert.Loss.nllAt
  refine Finset.sum_congr rfl fun lane _ => Finset.sum_congr rfl fun row _ => ?_
  rw [r0blk_apply m c t row lane (Cert.Loss.edgeOf (blkOf t) row lane) rfl,
    r1blk_apply m c t row lane (Cert.Loss.edgeOf (blkOf t) row lane) rfl,
    lblk_apply m c t row lane (Cert.Loss.edgeOf (blkOf t) row lane) rfl]

theorem pay10_blocks (c : Dev nD) (t : Fin cfg0.N) (j : S1x1.Idx) :
    k0_pay10 (F := Ideal) (r0blk m c t) (r1blk m c t) (lblk m c t) j = H m c t := by
  refine (pay10_apply (r0blk m c t) (r1blk m c t) (lblk m c t) j).trans ?_
  unfold H Cert.Loss.blockHit Cert.Loss.hitAt
  refine Finset.sum_congr rfl fun lane _ => Finset.sum_congr rfl fun row _ => ?_
  rw [r0blk_apply m c t row lane (Cert.Loss.edgeOf (blkOf t) row lane) rfl,
    r1blk_apply m c t row lane (Cert.Loss.edgeOf (blkOf t) row lane) rfl,
    lblk_apply m c t row lane (Cert.Loss.edgeOf (blkOf t) row lane) rfl]

/-! ## One step -/

/-- First step of a half: the loss accumulator holds `0 + L t`. -/
theorem acc0_first (c : Dev nD) (t : Fin cfg0.N) (h0 : t.val % 512 = 0) (h1 : ¬t.val % 512 = 511) (j : S1x1.Idx) :
    (outsAt0 m c t.val t.isLt).2.2.1 j = 0 + L m c t := by
  rw [outsAt0_A m c t h0 h1]
  dsimp only
  refine (congrFun (sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (r0blk m c t) (r1blk m c t) (lblk m c t)) j).trans ?_
  rw [pay1_apply, pay11_apply, pay9_blocks]

theorem acc1_first (c : Dev nD) (t : Fin cfg0.N) (h0 : t.val % 512 = 0) (h1 : ¬t.val % 512 = 511) (j : S1x1.Idx) :
    (outsAt0 m c t.val t.isLt).2.2.2 j = 0 + H m c t := by
  rw [outsAt0_A m c t h0 h1]
  dsimp only
  refine (congrFun (sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (r0blk m c t) (r1blk m c t) (lblk m c t)) j).trans ?_
  rw [pay2_apply, pay12_apply, pay10_blocks]

/-- A middle step: what the step before left, plus `L t`. -/
theorem acc0_mid (c : Dev nD) (t : Fin cfg0.N) (h0 : ¬t.val % 512 = 0) (h1 : ¬t.val % 512 = 511) (j : S1x1.Idx) :
    (outsAt0 m c t.val t.isLt).2.2.1 j = (outsAt0 m c (t.val - 1) (Nat.lt_of_le_of_lt (Nat.sub_le _ _) t.isLt)).2.2.1 j + L m c t := by
  rw [outsAt0_B m c t h0 h1]
  dsimp only
  refine (congrFun (sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (r0blk m c t) (r1blk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  rw [pay1_apply, pay9_blocks]

theorem acc1_mid (c : Dev nD) (t : Fin cfg0.N) (h0 : ¬t.val % 512 = 0) (h1 : ¬t.val % 512 = 511) (j : S1x1.Idx) :
    (outsAt0 m c t.val t.isLt).2.2.2 j = (outsAt0 m c (t.val - 1) (Nat.lt_of_le_of_lt (Nat.sub_le _ _) t.isLt)).2.2.2 j + H m c t := by
  rw [outsAt0_B m c t h0 h1]
  dsimp only
  refine (congrFun (sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (r0blk m c t) (r1blk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  rw [pay2_apply, pay10_blocks]

/-- The last step of a half: the same for the accumulators … -/
theorem acc0_last (c : Dev nD) (t : Fin cfg0.N) (h0 : ¬t.val % 512 = 0) (h1 : t.val % 512 = 511) (j : S1x1.Idx) :
    (outsAt0 m c t.val t.isLt).2.2.1 j = (outsAt0 m c (t.val - 1) (Nat.lt_of_le_of_lt (Nat.sub_le _ _) t.isLt)).2.2.1 j + L m c t := by
  rw [outsAt0_C m c t h0 h1]
  dsimp only
  refine (congrFun (sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (r0blk m c t) (r1blk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  rw [pay1_apply, pay9_blocks]

theorem acc1_last (c : Dev nD) (t : Fin cfg0.N) (h0 : ¬t.val % 512 = 0) (h1 : t.val % 512 = 511) (j : S1x1.Idx) :
    (outsAt0 m c t.val t.isLt).2.2.2 j = (outsAt0 m c (t.val - 1) (Nat.lt_of_le_of_lt (Nat.sub_le _ _) t.isLt)).2.2.2 j + H m c t := by
  rw [outsAt0_C m c t h0 h1]
  dsimp only
  refine (congrFun (sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (r0blk m c t) (r1blk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
  rw [pay2_apply, pay10_blocks]

/-- … and the output blocks hold the accumulators' new values at entry (0, 0), zero elsewhere. -/
theorem out3_last (c : Dev nD) (t : Fin cfg0.N) (h0 : ¬t.val % 512 = 0) (h1 : t.val % 512 = 511) (a : Fin 1) (r : Fin 8) (q : Fin 128) :
    (outsAt0 m c t.val t.isLt).1 (ix3 a r q)
      = if r.val = 0 ∧ q.val = 0 then (outsAt0 m c (t.val - 1) (Nat.lt_of_le_of_lt (Nat.sub_le _ _) t.isLt)).2.2.1 (ix2 (0 : Fin 1) (0 : Fin 1)) + L m c t else 0 := by
  rw [outsAt0_C m c t h0 h1]
  dsimp only
  refine (congrFun (out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (r0blk m c t) (r1blk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 a r q)).trans ?_
  rw [pay4_apply, pay1_apply, pay9_blocks]

theorem out4_last (c : Dev nD) (t : Fin cfg0.N) (h0 : ¬t.val % 512 = 0) (h1 : t.val % 512 = 511) (a : Fin 1) (r : Fin 8) (q : Fin 128) :
    (outsAt0 m c t.val t.isLt).2.1 (ix3 a r q)
      = if r.val = 0 ∧ q.val = 0 then (outsAt0 m c (t.val - 1) (Nat.lt_of_le_of_lt (Nat.sub_le _ _) t.isLt)).2.2.2 (ix2 (0 : Fin 1) (0 : Fin 1)) + H m c t else 0 := by
  rw [outsAt0_C m c t h0 h1]
  dsimp only
  refine (congrFun (out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (r0blk m c t) (r1blk m c t) (lblk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 a r q)).trans ?_
  rw [pay5_apply, pay2_apply, pay10_blocks]

end Cert.KernelIdeal.Val

end
-- ==== Proof.KSums.lean ====
/-
  The accumulators in closed form: after grid step `n` the loss accumulator holds the sum of the block sums
  `L (n - n % 512) + … + L n` of the half so far (by induction on the step: a reset at the first step of a half, one more
  term at every later step), and likewise the hit accumulator; so at a half's last step, `n = 512 h + 511`, they hold
  the half's totals, which is what the step writes to entry (0, 0) of the half's output block.
-/
import proofs.«420999_j1589137899697_3_alg».proof.Proof.KAccum

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The block sums by step number (zero past the grid, where nothing reads them). -/
def LN (c : Dev nD) (k : ℕ) : EReal := if h : k < cfg0.N then L m c ⟨k, h⟩ else 0
def HN (c : Dev nD) (k : ℕ) : EReal := if h : k < cfg0.N then H m c ⟨k, h⟩ else 0

theorem LN_of_lt (c : Dev nD) (k : ℕ) (h : k < cfg0.N) : LN m c k = L m c ⟨k, h⟩ := dif_pos h
theorem HN_of_lt (c : Dev nD) (k : ℕ) (h : k < cfg0.N) : HN m c k = H m c ⟨k, h⟩ := dif_pos h

/-- The running sums of the half so far. -/
def accL (c : Dev nD) (n : ℕ) : EReal := ∑ k ∈ Finset.range (n % 512 + 1), LN m c (n - n % 512 + k)
def accH (c : Dev nD) (n : ℕ) : EReal := ∑ k ∈ Finset.range (n % 512 + 1), HN m c (n - n % 512 + k)

/-- At the first step of a half the running sum is the step's own block sum. -/
theorem accL_first (c : Dev nD) (n : ℕ) (h0 : n % 512 = 0) : accL m c n = LN m c n := by
  unfold accL
  rw [h0, Finset.sum_range_one, Nat.sub_zero, Nat.add_zero]
theorem accH_first (c : Dev nD) (n : ℕ) (h0 : n % 512 = 0) : accH m c n = HN m c n := by
  unfold accH
  rw [h0, Finset.sum_range_one, Nat.sub_zero, Nat.add_zero]

/-- At a later step it is the previous running sum plus the step's block sum. -/
theorem accL_succ (c : Dev nD) (n : ℕ) (h0 : ¬(n + 1) % 512 = 0) : accL m c (n + 1) = accL m c n + LN m c (n + 1) := by
  have e1 : (n + 1) % 512 = n % 512 + 1 := by omega
  have e2 : n + 1 - (n % 512 + 1) = n - n % 512 := by omega
  have e3 : n - n % 512 + (n % 512 + 1) = n + 1 := by omega
  unfold accL
  rw [e1, e2, Finset.sum_range_succ, e3]
theorem accH_succ (c : Dev nD) (n : ℕ) (h0 : ¬(n + 1) % 512 = 0) : accH m c (n + 1) = accH m c n + HN m c (n + 1) := by
  have e1 : (n + 1) % 512 = n % 512 + 1 := by omega
  have e2 : n + 1 - (n % 512 + 1) = n - n % 512 := by omega
  have e3 : n - n % 512 + (n % 512 + 1) = n + 1 := by omega
  unfold accH
  rw [e1, e2, Finset.sum_range_succ, e3]

/-- THE ACCUMULATION: after step `n` the loss accumulator holds the running sum. -/
theorem acc0_eq (c : Dev nD) : ∀ (n : ℕ) (hn : n < cfg0.N) (j : S1x1.Idx), (outsAt0 m c n hn).2.2.1 j = accL m c n
  | 0, hn, j => by
    refine (acc0_first m c ⟨0, hn⟩ rfl (by show ¬(0 : ℕ) % 512 = 511; decide) j).trans ?_
    rw [zero_add, accL_first m c 0 rfl, LN_of_lt m c 0 hn]
  | n + 1, hn, j => by
    have ih := acc0_eq c n (Nat.lt_of_succ_lt hn) j
    by_cases h0 : (n + 1) % 512 = 0
    · by_cases h1 : (n + 1) % 512 = 511
      · omega
      · refine (acc0_first m c ⟨n + 1, hn⟩ h0 h1 j).trans ?_
        rw [zero_add, accL_first m c (n + 1) h0, LN_of_lt m c (n + 1) hn]
    · rw [accL_succ m c n h0, LN_of_lt m c (n + 1) hn, ← ih]
      by_cases h1 : (n + 1) % 512 = 511
      · exact acc0_last m c ⟨n + 1, hn⟩ h0 h1 j
      · exact acc0_mid m c ⟨n + 1, hn⟩ h0 h1 j

theorem acc1_eq (c : Dev nD) : ∀ (n : ℕ) (hn : n < cfg0.N) (j : S1x1.Idx), (outsAt0 m c n hn).2.2.2 j = accH m c n
  | 0, hn, j => by
    refine (acc1_first m c ⟨0, hn⟩ rfl (by show ¬(0 : ℕ) % 512 = 511; decide) j).trans ?_
    rw [zero_add, accH_first m c 0 rfl, HN_of_lt m c 0 hn]
  | n + 1, hn, j => by
    have ih := acc1_eq c n (Nat.lt_of_succ_lt hn) j
    by_cases h0 : (n + 1) % 512 = 0
    · by_cases h1 : (n + 1) % 512 = 511
      · omega
      · refine (acc1_first m c ⟨n + 1, hn⟩ h0 h1 j).trans ?_
        rw [zero_add, accH_first m c (n + 1) h0, HN_of_lt m c (n + 1) hn]
    · rw [accH_succ m c n h0, HN_of_lt m c (n + 1) hn, ← ih]
      by_cases h1 : (n + 1) % 512 = 511
      · exact acc1_last m c ⟨n + 1, hn⟩ h0 h1 j
      · exact acc1_mid m c ⟨n + 1, hn⟩ h0 h1 j

/-- At a half's last step the running sum is the half's total. -/
theorem accL_last (c : Dev nD) (n : ℕ) (hn : n < cfg0.N) (h1 : n % 512 = 511) :
    accL m c n = Cert.Loss.halfLoss (X m c) (Lb m c) ⟨n / 512, by have : cfg0.N = 1024 := N_0; omega⟩ := by
  have hN : cfg0.N = 1024 := N_0
  unfold accL Cert.Loss.halfLoss
  rw [h1, Finset.sum_range]
  refine Finset.sum_congr rfl fun i _ => ?_
  have hi : n - 511 + i.val < cfg0.N := by have := i.isLt; omega
  rw [LN_of_lt m c _ hi]
  show Cert.Loss.blockLoss (X m c) (Lb m c) _ = Cert.Loss.blockLoss (X m c) (Lb m c) _
  congr 1
  refine Fin.ext ?_
  show n - 511 + i.val = n / 512 * 512 + i.val
  omega
theorem accH_last (c : Dev nD) (n : ℕ) (hn : n < cfg0.N) (h1 : n % 512 = 511) :
    accH m c n = Cert.Loss.halfHit (X m c) (Lb m c) ⟨n / 512, by have : cfg0.N = 1024 := N_0; omega⟩ := by
  have hN : cfg0.N = 1024 := N_0
  unfold accH Cert.Loss.halfHit
  rw [h1, Finset.sum_range]
  refine Finset.sum_congr rfl fun i _ => ?_
  have hi : n - 511 + i.val < cfg0.N := by have := i.isLt; omega
  rw [HN_of_lt m c _ hi]
  show Cert.Loss.blockHit (X m c) (Lb m c) _ = Cert.Loss.blockHit (X m c) (Lb m c) _
  congr 1
  refine Fin.ext ?_
  show n - 511 + i.val = n / 512 * 512 + i.val
  omega

/-- What a half's last step leaves in the two output blocks: the half's totals at entry (0, 0), zero elsewhere. -/
theorem out3_eq (c : Dev nD) (t : Fin cfg0.N) (h1 : t.val % 512 = 511) (a : Fin 1) (r : Fin 8) (q : Fin 128) :
    (outsAt0 m c t.val t.isLt).1 (ix3 a r q)
      = if r.val = 0 ∧ q.val = 0 then Cert.Loss.halfLoss (X m c) (Lb m c) ⟨t.val / 512, by have : cfg0.N = 1024 := N_0; have := t.isLt; omega⟩ else 0 := by
  have h0 : ¬t.val % 512 = 0 := by omega
  rw [out3_last m c t h0 h1 a r q, ← accL_last m c t.val t.isLt h1, ← acc0_eq m c t.val t.isLt (ix2 (0 : Fin 1) (0 : Fin 1)),
    acc0_last m c t h0 h1 (ix2 (0 : Fin 1) (0 : Fin 1))]
theorem out4_eq (c : Dev nD) (t : Fin cfg0.N) (h1 : t.val % 512 = 511) (a : Fin 1) (r : Fin 8) (q : Fin 128) :
    (outsAt0 m c t.val t.isLt).2.1 (ix3 a r q)
      = if r.val = 0 ∧ q.val = 0 then Cert.Loss.halfHit (X m c) (Lb m c) ⟨t.val / 512, by have : cfg0.N = 1024 := N_0; have := t.isLt; omega⟩ else 0 := by
  have h0 : ¬t.val % 512 = 0 := by omega
  rw [out4_last m c t h0 h1 a r q, ← accH_last m c t.val t.isLt h1, ← acc1_eq m c t.val t.isLt (ix2 (0 : Fin 1) (0 : Fin 1)),
    acc1_last m c t h0 h1 (ix2 (0 : Fin 1) (0 : Fin 1))]

end Cert.KernelIdeal.Val

end
-- ==== Proof.KFinal.lean ====
/-
  The two result arrays of the kernel, [2, 8, 128] each: only a half's last grid step writes its block back, and block
  `h` then holds the half's total at entry (0, 0), zero elsewhere. The two write-backs (steps 511 and 1023) cover the
  array, so after the run array entry (h, r, q) is half `h`'s total when `r = q = 0` and zero otherwise.
-/
import proofs.«420999_j1589137899697_3_alg».proof.Proof.KSums

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The first result array after the run: the halves' loss totals at (h, 0, 0). -/
def G3 (c : Dev nD) : S2x8x128.Idx → EReal := fun i =>
  if (i 1).val = 0 ∧ (i 2).val = 0 then Cert.Loss.halfLoss (X m c) (Lb m c) ⟨(i 0).val, (i 0).isLt⟩ else 0
/-- The second: the halves' hit totals. -/
def G4 (c : Dev nD) : S2x8x128.Idx → EReal := fun i =>
  if (i 1).val = 0 ∧ (i 2).val = 0 then Cert.Loss.halfHit (X m c) (Lb m c) ⟨(i 0).val, (i 0).isLt⟩ else 0

/-- What a half's last step leaves in the first output block, at any entry of the block. -/
theorem out3_at (c : Dev nD) (t : Fin cfg0.N) (h1 : t.val % 512 = 511) (j : S1x8x128.Idx) :
    (outsAt0 m c t.val t.isLt).1 j
      = if (j 1).val = 0 ∧ (j 2).val = 0 then Cert.Loss.halfLoss (X m c) (Lb m c) ⟨t.val / 512, by have : cfg0.N = 1024 := N_0; have := t.isLt; omega⟩ else 0 := by
  exact (congrArg (outsAt0 m c t.val t.isLt).1 (eq_ix3 j)).trans (out3_eq m c t h1 (j 0) (j 1) (j 2))
theorem out4_at (c : Dev nD) (t : Fin cfg0.N) (h1 : t.val % 512 = 511) (j : S1x8x128.Idx) :
    (outsAt0 m c t.val t.isLt).2.1 j
      = if (j 1).val = 0 ∧ (j 2).val = 0 then Cert.Loss.halfHit (X m c) (Lb m c) ⟨t.val / 512, by have : cfg0.N = 1024 := N_0; have := t.isLt; omega⟩ else 0 := by
  exact (congrArg (outsAt0 m c t.val t.isLt).2.1 (eq_ix3 j)).trans (out4_eq m c t h1 (j 0) (j 1) (j 2))

/-- The output windows' block index at a grid step: the half's number, then zeros (decided over the grid). -/
theorem idx3 : ∀ t : Fin cfg0.N, win0_3.index t (0 : Fin 3) = t.val / 512 ∧ win0_3.index t (1 : Fin 3) = 0 ∧ win0_3.index t (2 : Fin 3) = 0 :=
  (by decide +kernel : ∀ t : Fin grid0.N, win0_3.index t (0 : Fin 3) = t.val / 512 ∧ win0_3.index t (1 : Fin 3) = 0 ∧ win0_3.index t (2 : Fin 3) = 0)
theorem idx4 : ∀ t : Fin cfg0.N, win0_4.index t (0 : Fin 3) = t.val / 512 ∧ win0_4.index t (1 : Fin 3) = 0 ∧ win0_4.index t (2 : Fin 3) = 0 :=
  (by decide +kernel : ∀ t : Fin grid0.N, win0_4.index t (0 : Fin 3) = t.val / 512 ∧ win0_4.index t (1 : Fin 3) = 0 ∧ win0_4.index t (2 : Fin 3) = 0)

/-- What a writing step writes back is its block of `G3`. -/
theorem flushed3_eq (c : Dev nD) (t : Fin cfg0.N) (hf : (cfg0.win 3).flush t = true) :
    (dats m 0 c).flushed 3 t = ((cfg0.win 3).blk t).view.read (Elt Ideal) (G3 m c) := by
  have h1 : t.val % 512 = 511 := (flush0_3 t).mp hf
  have hN : cfg0.N = 1024 := N_0
  have ht := t.isLt
  obtain ⟨i0, i1, i2⟩ := idx3 t
  show (cfg0.win 3).cut (grid0.coords t) ((dats m 0 c).after 3 t) = _
  rw [after0_3]
  funext j
  refine (out3_at m c t h1 j).trans ?_
  show _ = G3 m c (((cfg0.win 3).blk t).view.emb j)
  have e0 : ((((cfg0.win 3).blk t).view.emb j) 0).val = win0_3.index t (0 : Fin 3) * 1 + 1 * (j 0).val := rfl
  have e1 : ((((cfg0.win 3).blk t).view.emb j) 1).val = win0_3.index t (1 : Fin 3) * 8 + 1 * (j 1).val := rfl
  have e2 : ((((cfg0.win 3).blk t).view.emb j) 2).val = win0_3.index t (2 : Fin 3) * 128 + 1 * (j 2).val := rfl
  have hj0 : (j 0).val < 1 := (j 0).isLt
  unfold G3
  by_cases hc : (j 1).val = 0 ∧ (j 2).val = 0
  · rw [if_pos hc, if_pos (by rw [e1, e2]; omega)]
    congr 1
    refine Fin.ext ?_
    show t.val / 512 = ((((cfg0.win 3).blk t).view.emb j) 0).val
    rw [e0]; omega
  · rw [if_neg hc, if_neg (by rw [e1, e2]; omega)]

theorem flushed4_eq (c : Dev nD) (t : Fin cfg0.N) (hf : (cfg0.win 4).flush t = true) :
    (dats m 0 c).flushed 4 t = ((cfg0.win 4).blk t).view.read (Elt Ideal) (G4 m c) := by
  have h1 : t.val % 512 = 511 := (flush0_4 t).mp hf
  have hN : cfg0.N = 1024 := N_0
  have ht := t.isLt
  obtain ⟨i0, i1, i2⟩ := idx4 t
  show (cfg0.win 4).cut (grid0.coords t) ((dats m 0 c).after 4 t) = _
  rw [after0_4]
  funext j
  refine (out4_at m c t h1 j).trans ?_
  show _ = G4 m c (((cfg0.win 4).blk t).view.emb j)
  have e0 : ((((cfg0.win 4).blk t).view.emb j) 0).val = win0_4.index t (0 : Fin 3) * 1 + 1 * (j 0).val := rfl
  have e1 : ((((cfg0.win 4).blk t).view.emb j) 1).val = win0_4.index t (1 : Fin 3) * 8 + 1 * (j 1).val := rfl
  have e2 : ((((cfg0.win 4).blk t).view.emb j) 2).val = win0_4.index t (2 : Fin 3) * 128 + 1 * (j 2).val := rfl
  have hj0 : (j 0).val < 1 := (j 0).isLt
  unfold G4
  by_cases hc : (j 1).val = 0 ∧ (j 2).val = 0
  · rw [if_pos hc, if_pos (by rw [e1, e2]; omega)]
    congr 1
    refine Fin.ext ?_
    show t.val / 512 = ((((cfg0.win 4).blk t).view.emb j) 0).val
    rw [e0]; omega
  · rw [if_neg hc, if_neg (by rw [e1, e2]; omega)]

/-- An index of a result array is in step `t`'s block iff each coordinate is in the block's range on its axis. -/
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v7_0).slice (win0_3.rect t)).set ↔ _
  rw [View.set_slice_whole, Rect.mem_set_unit]
  exact Iff.rfl
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v7_1).slice (win0_4.rect t)).set ↔ _
  rw [View.set_slice_whole, Rect.mem_set_unit]
  exact Iff.rfl

/-- Entry (h, r, q) lies in the block written back by half `h`'s last step, `512 h + 511`. -/
theorem cover3 (i : S2x8x128.Idx) : ∃ t : Fin cfg0.N, (cfg0.win 3).flush t = true ∧ i ∈ ((cfg0.win 3).blk t).view.set := by
  have hN : cfg0.N = 1024 := N_0
  have h0 : (i 0).val < 2 := (i 0).isLt
  have h1 : (i 1).val < 8 := (i 1).isLt
  have h2 : (i 2).val < 128 := (i 2).isLt
  obtain ⟨t0, ht0⟩ : ∃ t0 : Fin cfg0.N, t0.val = (i 0).val * 512 + 511 := ⟨⟨(i 0).val * 512 + 511, by omega⟩, rfl⟩
  refine ⟨t0, (flush0_3 t0).mpr (by omega), ?_⟩
  rw [mem_blk3]
  obtain ⟨i0, i1, i2⟩ := idx3 t0
  have i0' : win0_3.index t0 (0 : Fin 3) = (i 0).val := by rw [i0]; omega
  intro a
  match a with
  | ⟨0, _⟩ => show win0_3.index _ (0 : Fin 3) * 1 ≤ (i 0).val ∧ (i 0).val < win0_3.index _ (0 : Fin 3) * 1 + 1; rw [i0']; omega
  | ⟨1, _⟩ => show win0_3.index _ (1 : Fin 3) * 8 ≤ (i 1).val ∧ (i 1).val < win0_3.index _ (1 : Fin 3) * 8 + 8; rw [i1]; omega
  | ⟨2, _⟩ => show win0_3.index _ (2 : Fin 3) * 128 ≤ (i 2).val ∧ (i 2).val < win0_3.index _ (2 : Fin 3) * 128 + 128; rw [i2]; omega
theorem cover4 (i : S2x8x128.Idx) : ∃ t : Fin cfg0.N, (cfg0.win 4).flush t = true ∧ i ∈ ((cfg0.win 4).blk t).view.set := by
  have hN : cfg0.N = 1024 := N_0
  have h0 : (i 0).val < 2 := (i 0).isLt
  have h1 : (i 1).val < 8 := (i 1).isLt
  have h2 : (i 2).val < 128 := (i 2).isLt
  obtain ⟨t0, ht0⟩ : ∃ t0 : Fin cfg0.N, t0.val = (i 0).val * 512 + 511 := ⟨⟨(i 0).val * 512 + 511, by omega⟩, rfl⟩
  refine ⟨t0, (flush0_4 t0).mpr (by omega), ?_⟩
  rw [mem_blk4]
  obtain ⟨i0, i1, i2⟩ := idx4 t0
  have i0' : win0_4.index t0 (0 : Fin 3) = (i 0).val := by rw [i0]; omega
  intro a
  match a with
  | ⟨0, _⟩ => show win0_4.index _ (0 : Fin 3) * 1 ≤ (i 0).val ∧ (i 0).val < win0_4.index _ (0 : Fin 3) * 1 + 1; rw [i0']; omega
  | ⟨1, _⟩ => show win0_4.index _ (1 : Fin 3) * 8 ≤ (i 1).val ∧ (i 1).val < win0_4.index _ (1 : Fin 3) * 8 + 8; rw [i1]; omega
  | ⟨2, _⟩ => show win0_4.index _ (2 : Fin 3) * 128 ≤ (i 2).val ∧ (i 2).val < win0_4.index _ (2 : Fin 3) * 128 + 128; rw [i2]; omega

/-- The result arrays after the run. -/
theorem final3 (c : Dev nD) : (dats m 0 c).arrAt 3 cfg0.N = G3 m c :=
  (dats m 0 c).arrAt_eq_of_cover 3 (G3 m c) (flushed3_eq m c) (cover3)
theorem final4 (c : Dev nD) : (dats m 0 c).arrAt 4 cfg0.N = G4 m c :=
  (dats m 0 c).arrAt_eq_of_cover 4 (G4 m c) (flushed4_eq m c) (cover4)

end Cert.KernelIdeal.Val

end
-- ==== Proof.Reindex.lean ====
/-
  The sum over all edges, regrouped the way the kernel adds them up: edge `(t·128 + row)·128 + lane` is lane `lane` of
  row `row` of block `t`, so the sum over the 16777216 edges is the sum over the 1024 blocks of each block's sum over
  lanes and rows; and the blocks split into the two halves of 512. Sums in a commutative monoid: no finiteness.
-/
import proofs.«420999_j1589137899697_3_alg».proof.Proof.Spec
import Mathlib.Algebra.BigOperators.Fin
import Mathlib.Algebra.BigOperators.Group.Finset.Basic
import Mathlib.Data.Fintype.BigOperators

noncomputable section

open scoped BigOperators

namespace Cert.Loss

/-- Block, lane and row number the edges one to one: edge `e` is lane `e % 128` of row `e / 128 % 128` of block
`e / 16384`, and `(t·128 + row)·128 + lane` gives back `t`, `lane`, `row` since `lane < 128` and `row < 128`. -/
def edgeEquiv : Fin 1024 × Fin 128 × Fin 128 ≃ Fin 16777216 where
  toFun p := edgeOf p.1 p.2.2 p.2.1
  invFun e :=
    (⟨e.val / 16384, by have := e.isLt; omega⟩, ⟨e.val % 128, by omega⟩, ⟨e.val / 128 % 128, by omega⟩)
  left_inv := by
    rintro ⟨t, lane, row⟩
    have ht := t.isLt
    have hl := lane.isLt
    have hr := row.isLt
    refine Prod.ext (Fin.ext ?_) (Prod.ext (Fin.ext ?_) (Fin.ext ?_))
    · show ((t.val * 128 + row.val) * 128 + lane.val) / 16384 = t.val
      omega
    · show ((t.val * 128 + row.val) * 128 + lane.val) % 128 = lane.val
      omega
    · show ((t.val * 128 + row.val) * 128 + lane.val) / 128 % 128 = row.val
      omega
  right_inv := by
    intro e
    have he := e.isLt
    refine Fin.ext ?_
    show (e.val / 16384 * 128 + e.val / 128 % 128) * 128 + e.val % 128 = e.val
    omega

/-- A sum over the edges is the sum over blocks, lanes and rows. -/
theorem sum_edges {M : Type*} [AddCommMonoid M] (f : Fin 16777216 → M) :
    ∑ e : Fin 16777216, f e = ∑ t : Fin 1024, ∑ lane : Fin 128, ∑ row : Fin 128, f (edgeOf t row lane) := by
  -- reindex along the bijection, then split the sum over triples into the three nested sums
  refine (Equiv.sum_comp edgeEquiv f).symm.trans ?_
  refine (Fintype.sum_prod_type _).trans ?_
  refine Fintype.sum_congr _ _ fun t => ?_
  exact Fintype.sum_prod_type _

/-- Half and step number the blocks one to one: block `t` is step `t % 512` of half `t / 512`. -/
def blockEquiv : Fin 2 × Fin 512 ≃ Fin 1024 where
  toFun p := blockOf p.1 p.2
  invFun t := (⟨t.val / 512, by have := t.isLt; omega⟩, ⟨t.val % 512, by omega⟩)
  left_inv := by
    rintro ⟨h, i⟩
    have hh := h.isLt
    have hi := i.isLt
    refine Prod.ext (Fin.ext ?_) (Fin.ext ?_)
    · show (h.val * 512 + i.val) / 512 = h.val
      omega
    · show (h.val * 512 + i.val) % 512 = i.val
      omega
  right_inv := by
    intro t
    have ht := t.isLt
    refine Fin.ext ?_
    show t.val / 512 * 512 + t.val % 512 = t.val
    omega

/-- A sum over the 1024 blocks is the first half's plus the second half's. -/
theorem sum_blocks {M : Type*} [AddCommMonoid M] (g : Fin 1024 → M) :
    ∑ t : Fin 1024, g t = (∑ i : Fin 512, g (blockOf 0 i)) + ∑ i : Fin 512, g (blockOf 1 i) := by
  -- reindex along the bijection, split the sum over pairs, and write out the sum over the two halves
  refine (Equiv.sum_comp blockEquiv g).symm.trans ?_
  refine (Fintype.sum_prod_type _).trans ?_
  exact Fin.sum_univ_two _

/-- So the sums over all edges are the two halves' sums added. -/
theorem lossSum_eq (x : SX.Idx → EReal) (l : SL.Idx → BitVec 32) : lossSum x l = halfLoss x l 0 + halfLoss x l 1 := by
  unfold lossSum halfLoss blockLoss
  rw [sum_edges, sum_blocks]

theorem hitSum_eq (x : SX.Idx → EReal) (l : SL.Idx → BitVec 32) : hitSum x l = halfHit x l 0 + halfHit x l 1 := by
  unfold hitSum halfHit blockHit
  rw [sum_edges, sum_blocks]

end Cert.Loss

end
-- ==== Proof.KTail.lean ====
/-
  The host operations after the kernel and the whole run of the idealized kernel program: the loss is
  `(A[0,0,0] + A[1,0,0]) / 16777216` of the first result array `A`, i.e. the two halves' totals added and divided by
  the number of edges; since the sum over all edges is the two halves' totals added, that is the specification's loss;
  the accuracy likewise from the second result array.
-/
import proofs.«420999_j1589137899697_3_alg».proof.Proof.KFinal
import proofs.«420999_j1589137899697_3_alg».proof.Proof.Reindex
import Idealize.ShloMosaic.Lib.StableHlo.Run

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The host tail on a result array `A`: entries (0,0,0) and (1,0,0) added, divided by the edge count. -/
def tailOf (A : S2x8x128.Idx → EReal) : S_.Idx → EReal :=
  Host.divf (F := Ideal)
    (addf (F := Ideal) (shapeCast S_ (extractStridedSlice S1x1x1 ![0, 0, 0] A slices_S2x8x128_S1x1x1_0_0_0) shapeCasts_S1x1x1_S_)
      (shapeCast S_ (extractStridedSlice S1x1x1 ![1, 0, 0] A slices_S2x8x128_S1x1x1_1_0_0) shapeCasts_S1x1x1_S_))
    (constant (F := Ideal) S_ .f32 0x4B800000#32)

/-- The scalar shape's one index has row-major position zero. -/
theorem rm0 (i : S_.Idx) : (S_.rowMajor i).val = 0 := by
  have h : (S_.rowMajor i).val < 1 := (S_.rowMajor i).isLt
  omega

/-- Read at its one index: `(A[0,0,0] + A[1,0,0]) / 16777216`. -/
theorem tailOf_apply (A : S2x8x128.Idx → EReal) (i : S_.Idx) :
    tailOf A i = Ideal.div (A (ix3 (0 : Fin 2) (0 : Fin 8) (0 : Fin 128)) + A (ix3 (1 : Fin 2) (0 : Fin 8) (0 : Fin 128))) (Ideal.ofBits .f32 0x4B800000#32) := by
  have h0 : shapeCast S_ (extractStridedSlice S1x1x1 ![0, 0, 0] A slices_S2x8x128_S1x1x1_0_0_0) shapeCasts_S1x1x1_S_ i
      = A (ix3 (0 : Fin 2) (0 : Fin 8) (0 : Fin 128)) := by
    rw [shapeCast_apply _ shapeCasts_S1x1x1_S_ i (ix3 (0 : Fin 1) (0 : Fin 1) (0 : Fin 1)) (by rw [Shape.rowMajor_val_three, rm0]; rfl)]
    exact extractStridedSlice_apply ![0, 0, 0] A slices_S2x8x128_S1x1x1_0_0_0 (ix3 (0 : Fin 1) (0 : Fin 1) (0 : Fin 1))
      (ix3 (0 : Fin 2) (0 : Fin 8) (0 : Fin 128)) (fun a => by match a with | ⟨0, _⟩ => rfl | ⟨1, _⟩ => rfl | ⟨2, _⟩ => rfl)
  have h1 : shapeCast S_ (extractStridedSlice S1x1x1 ![1, 0, 0] A slices_S2x8x128_S1x1x1_1_0_0) shapeCasts_S1x1x1_S_ i
      = A (ix3 (1 : Fin 2) (0 : Fin 8) (0 : Fin 128)) := by
    rw [shapeCast_apply _ shapeCasts_S1x1x1_S_ i (ix3 (0 : Fin 1) (0 : Fin 1) (0 : Fin 1)) (by rw [Shape.rowMajor_val_three, rm0]; rfl)]
    exact extractStridedSlice_apply ![1, 0, 0] A slices_S2x8x128_S1x1x1_1_0_0 (ix3 (0 : Fin 1) (0 : Fin 1) (0 : Fin 1))
      (ix3 (1 : Fin 2) (0 : Fin 8) (0 : Fin 128)) (fun a => by match a with | ⟨0, _⟩ => rfl | ⟨1, _⟩ => rfl | ⟨2, _⟩ => rfl)
  show Ideal.div (shapeCast S_ (extractStridedSlice S1x1x1 ![0, 0, 0] A slices_S2x8x128_S1x1x1_0_0_0) shapeCasts_S1x1x1_S_ i
      + shapeCast S_ (extractStridedSlice S1x1x1 ![1, 0, 0] A slices_S2x8x128_S1x1x1_1_0_0) shapeCasts_S1x1x1_S_ i) (Ideal.ofBits .f32 0x4B800000#32) = _
  rw [h0, h1]

/-- The tail of the first result array is the specification's loss. -/
theorem tail_G3 (c : Dev nD) : tailOf (G3 m c) = Cert.Loss.lossOut (X m c) (Lb m c) := by
  funext i
  rw [tailOf_apply]
  unfold Cert.Loss.lossOut
  rw [Cert.Loss.lossSum_eq]
  unfold G3
  rw [if_pos ⟨rfl, rfl⟩, if_pos ⟨rfl, rfl⟩]
theorem tail_G4 (c : Dev nD) : tailOf (G4 m c) = Cert.Loss.accOut (X m c) (Lb m c) := by
  funext i
  rw [tailOf_apply]
  unfold Cert.Loss.accOut
  rw [Cert.Loss.hitSum_eq]
  unfold G4
  rw [if_pos ⟨rfl, rfl⟩, if_pos ⟨rfl, rfl⟩]

/-- After the region the two result arrays' buffers hold `G3`, `G4`. -/
theorem arr3 (c : Dev nD) :
    Pipeline.withArrays (cfgs 0).spec c (V0 m c) (fun w => (dats m 0 c).arrAt w (cfgs 0).N) (Proc.devRef .tc main_v7_0) = G3 m c :=
  (Pipeline.withArrays_arr spec0 launch0.win.arr_inj c _ _ 3).trans (final3 m c)
theorem arr4 (c : Dev nD) :
    Pipeline.withArrays (cfgs 0).spec c (V0 m c) (fun w => (dats m 0 c).arrAt w (cfgs 0).N) (Proc.devRef .tc main_v7_1) = G4 m c :=
  (Pipeline.withArrays_arr spec0 launch0.win.arr_inj c _ _ 4).trans (final4 m c)

/-- The two results after the host tail. -/
theorem tail13 (c : Dev nD) :
    Pipeline.afterTail₀ cfgs (dats m) 0 (V0 m) [hostOps1] c main_v13 = Cert.Loss.lossOut (X m c) (Lb m c) := by
  unfold Pipeline.afterTail₀
  show StableHlo.after hostOps1 _ (Proc.devRef .tc main_v13) = _
  after_results
  exact (congrArg tailOf (arr3 m c)).trans (tail_G3 m c)
theorem tail19 (c : Dev nD) :
    Pipeline.afterTail₀ cfgs (dats m) 0 (V0 m) [hostOps1] c main_v19 = Cert.Loss.accOut (X m c) (Lb m c) := by
  unfold Pipeline.afterTail₀
  show StableHlo.after hostOps1 _ (Proc.devRef .tc main_v19) = _
  after_results
  exact (congrArg tailOf (arr4 m c)).trans (tail_G4 m c)

/-- THE RUN of the idealized kernel program: it terminates with the two results at the specification's loss and accuracy
    of the argument arrays, and the arguments unchanged. -/
theorem run : θ_run defs (onTc (τ := τ) (main (F := Ideal))) ⟨m, fun _ => 0, ρ⟩ fun r => ∀ c : Dev nD,
      r.2.mem ((c.tc : Thread nD τ).loc main_v13) = Cert.Loss.lossOut (X m c) (Lb m c)
      ∧ r.2.mem ((c.tc : Thread nD τ).loc main_v19) = Cert.Loss.accOut (X m c) (Lb m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail13 m c),
      ((h c).2 main_v19 (Pipeline.mem_restRefs_of main_v19 (by decide) (by decide))).trans (tail19 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Val

end
-- ==== Proof.RefOps.lean ====
/- The reference program's 59 host operations (the list `ops` of Proof/RefRun.lean, text unchanged) cut into five
   consecutive lists: the log-softmax (operations 1-15), the label index (16-24), the labelled column picked out
   (25-38), the loss's negation, sum and quotient (39-44), the accuracy (45-59). -/
import proofs.«420999_j1589137899697_3_alg».proof.Proof.RefRun

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

abbrev L1 : List (HloOp τ sig (Elt F)) :=
  [ TRef.nullary (TRef.of (T := ⟨S_, .f32⟩) main_call0_cst) (constant S_ .f32 0xFF800000#32),
    TRef.binary (TRef.of (T := ⟨S16777216x2, .f32⟩) main_arg0) (TRef.of (T := ⟨S_, .f32⟩) main_call0_cst) (TRef.of (T := ⟨S16777216, .f32⟩) main_call0_v0) (fun x v => Host.reduce FloatOps.maximumf x v reducesTo_S16777216x2_S16777216_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16777216, .f32⟩) main_call0_v1) (broadcastInDim S16777216 ![] bcast_S_S16777216),
    TRef.binary (TRef.of (T := ⟨S16777216, .f32⟩) main_call0_v1) (TRef.of (T := ⟨S16777216, .f32⟩) main_call0_v0) (TRef.of (T := ⟨S16777216, .f32⟩) main_call0_v2) maximumf,
    TRef.unary (TRef.of (T := ⟨S16777216, .f32⟩) main_call0_v2) (TRef.of (T := ⟨S16777216x1, .f32⟩) main_call0_v3) (broadcastInDim S16777216x1 ![0] bcast_S16777216_S16777216x1_0),
    TRef.unary (TRef.of (T := ⟨S16777216x1, .f32⟩) main_call0_v3) (TRef.of (T := ⟨S16777216x2, .f32⟩) main_call0_v4) (broadcastInDim S16777216x2 ![0, 1] bcast_S16777216x1_S16777216x2_0_1),
    TRef.binary (TRef.of (T := ⟨S16777216x2, .f32⟩) main_arg0) (TRef.of (T := ⟨S16777216x2, .f32⟩) main_call0_v4) (TRef.of (T := ⟨S16777216x2, .f32⟩) main_call0_v5) subf,
    TRef.unary (TRef.of (T := ⟨S16777216x2, .f32⟩) main_call0_v5) (TRef.of (T := ⟨S16777216x2, .f32⟩) main_call0_v6) Host.exp,
    TRef.nullary (TRef.of (T := ⟨S_, .f32⟩) main_call0_cst_1) (constant S_ .f32 0x00000000#32),
    TRef.binary (TRef.of (T := ⟨S16777216x2, .f32⟩) main_call0_v6) (TRef.of (T := ⟨S_, .f32⟩) main_call0_cst_1) (TRef.of (T := ⟨S16777216, .f32⟩) main_call0_v7) (fun x v => Host.reduceAdd x v reducesTo_S16777216x2_S16777216_d1 h_S_),
    TRef.unary (TRef.of (T := ⟨S16777216, .f32⟩) main_call0_v7) (TRef.of (T := ⟨S16777216x1, .f32⟩) main_call0_v8) (broadcastInDim S16777216x1 ![0] bcast_S16777216_S16777216x1_0),
    TRef.unary (TRef.of (T := ⟨S16777216x1, .f32⟩) main_call0_v8) (TRef.of (T := ⟨S16777216x1, .f32⟩) main_call0_v9) Host.log,
    TRef.unary (TRef.of (T := ⟨S16777216x1, .f32⟩) main_call0_v9) (TRef.of (T := ⟨S16777216x2, .f32⟩) main_call0_v10) (broadcastInDim S16777216x2 ![0, 1] bcast_S16777216x1_S16777216x2_0_1),
    TRef.binary (TRef.of (T := ⟨S16777216x2, .f32⟩) main_call0_v5) (TRef.of (T := ⟨S16777216x2, .f32⟩) main_call0_v10) (TRef.of (T := ⟨S16777216x2, .f32⟩) main_v0) subf ]

abbrev L2 : List (HloOp τ sig (Elt F)) :=
  [ unary main_arg1 main_v1 (broadcastInDim S16777216x1 ![0] bcast_S16777216_S16777216x1_0 : (⟨S16777216, .i32⟩ : BufTy).Contents (Elt F) → (⟨S16777216x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16777216x1, .i32⟩) main_call1_v0) (broadcastInDim S16777216x1 ![] bcast_S_S16777216x1),
    TRef.binary (TRef.of (T := ⟨S16777216x1, .i32⟩) main_v1) (TRef.of (T := ⟨S16777216x1, .i32⟩) main_call1_v0) (TRef.of (T := ⟨S16777216x1, .i1⟩) main_call1_v1) (cmpi .slt),
    TRef.nullary (TRef.of (T := ⟨S_, .i32⟩) main_call1_c_0) (constantI S_ 32 2#32),
    TRef.unary (TRef.of (T := ⟨S_, .i32⟩) main_call1_c_0) (TRef.of (T := ⟨S16777216x1, .i32⟩) main_call1_v2) (broadcastInDim S16777216x1 ![] bcast_S_S16777216x1),
    TRef.binary (TRef.of (T := ⟨S16777216x1, .i32⟩) main_v1) (TRef.of (T := ⟨S16777216x1, .i32⟩) main_call1_v2) (TRef.of (T := ⟨S16777216x1, .i32⟩) main_call1_v3) addi,
    TRef.ternary (TRef.of (T := ⟨S16777216x1, .i1⟩) main_call1_v1) (TRef.of (T := ⟨S16777216x1, .i32⟩) main_call1_v3) (TRef.of (T := ⟨S16777216x1, .i32⟩) main_v1) (TRef.of (T := ⟨S16777216x1, .i32⟩) main_call1_v4) select,
    TRef.reshape (TRef.of (T := ⟨S16777216x1, .i32⟩) main_call1_v4) (TRef.of (T := ⟨S16777216x1x1, .i32⟩) main_call1_v5) rfl shapeCasts_S16777216x1_S16777216x1x1 ]

abbrev L3 : List (HloOp τ sig (Elt F)) :=
  [ TRef.nullary (TRef.of (T := ⟨S1, .i32⟩) main_call1_c_1) (constantI S1 32 1#32),
    TRef.nullary (TRef.of (T := ⟨S_, .i32⟩) main_call1_c_2) (constantI S_ 32 0#32),
    TRef.unary (TRef.of (T := ⟨S_, .i32⟩) main_call1_c_2) (TRef.of (T := ⟨S16777216x1x1, .i32⟩) main_call1_v6) (broadcastInDim S16777216x1x1 ![] bcast_S_S16777216x1x1),
    TRef.binary (TRef.of (T := ⟨S16777216x1x1, .i32⟩) main_call1_v5) (TRef.of (T := ⟨S16777216x1x1, .i32⟩) main_call1_v6) (TRef.of (T := ⟨S16777216x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16777216x1x1, .i32⟩) main_call1_v9) (broadcastInDim S16777216x1x1 ![0, 1, 2] bcast_S1x1x1_S16777216x1x1_0_1_2),
    TRef.binary (TRef.of (T := ⟨S16777216x1x1, .i32⟩) main_call1_v5) (TRef.of (T := ⟨S16777216x1x1, .i32⟩) main_call1_v9) (TRef.of (T := ⟨S16777216x1x1, .i1⟩) main_call1_v10) (cmpi .sle),
    TRef.binary (TRef.of (T := ⟨S16777216x1x1, .i1⟩) main_call1_v7) (TRef.of (T := ⟨S16777216x1x1, .i1⟩) main_call1_v10) (TRef.of (T := ⟨S16777216x1x1, .i1⟩) main_call1_v11) andi,
    TRef.nullary (TRef.of (T := ⟨S_, .i1⟩) main_call1_c_3) (constantI S_ 1 1#1),
    TRef.binary (TRef.of (T := ⟨S16777216x1x1, .i1⟩) main_call1_v11) (TRef.of (T := ⟨S_, .i1⟩) main_call1_c_3) (TRef.of (T := ⟨S16777216x1, .i1⟩) main_call1_v12) (fun x v => Host.reduce IntOp.andi x v reducesTo_S16777216x1x1_S16777216x1_d2 h_S_),
    TRef.binary (TRef.of (T := ⟨S16777216x2, .f32⟩) main_v0) (TRef.of (T := ⟨S16777216x1x1, .i32⟩) main_call1_v5) (TRef.of (T := ⟨S16777216x1, .f32⟩) main_call1_v13) (fun x i => Host.gather gather_S16777216x2_S16777216x1x1_S16777216x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16777216x1, .f32⟩) main_call1_v14) (broadcastInDim S16777216x1 ![] bcast_S_S16777216x1),
    TRef.ternary (TRef.of (T := ⟨S16777216x1, .i1⟩) main_call1_v12) (TRef.of (T := ⟨S16777216x1, .f32⟩) main_call1_v13) (TRef.of (T := ⟨S16777216x1, .f32⟩) main_call1_v14) (TRef.of (T := ⟨S16777216x1, .f32⟩) main_v2) select ]

abbrev L4 : List (HloOp τ sig (Elt F)) :=
  [ reshape main_v2 main_v3 rfl shapeCasts_S16777216x1_S16777216,
    unary main_v3 main_v4 (Host.negf : (⟨S16777216, .f32⟩ : BufTy).Contents (Elt F) → (⟨S16777216, .f32⟩ : BufTy).Contents (Elt F)),
    nullary main_cst (constant S_ .f32 0x00000000#32),
    binary main_v4 main_cst main_v5 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_0 (constant S_ .f32 0x4B800000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

abbrev L5 : List (HloOp τ sig (Elt F)) :=
  [ unary main_arg0 main_v7 ((extractStridedSlice S16777216x1 ![0, 0] · slices_S16777216x2_S16777216x1_0_0) : (⟨S16777216x2, .f32⟩ : BufTy).Contents (Elt F) → (⟨S16777216x1, .f32⟩ : BufTy).Contents (Elt F)),
    reshape main_v7 main_v8 rfl shapeCasts_S16777216x1_S16777216,
    unary main_arg0 main_v9 ((extractStridedSlice S16777216x1 ![0, 1] · slices_S16777216x2_S16777216x1_0_1) : (⟨S16777216x2, .f32⟩ : BufTy).Contents (Elt F) → (⟨S16777216x1, .f32⟩ : BufTy).Contents (Elt F)),
    reshape main_v9 main_v10 rfl shapeCasts_S16777216x1_S16777216,
    nullary main_c (constantI S_ 32 0#32),
    unary main_c main_v11 (broadcastInDim S16777216 ![] bcast_S_S16777216 : (⟨S_, .i32⟩ : BufTy).Contents (Elt F) → (⟨S16777216, .i32⟩ : BufTy).Contents (Elt F)),
    binary main_arg1 main_v11 main_v12 (cmpi .eq : (⟨S16777216, .i32⟩ : BufTy).Contents (Elt F) → (⟨S16777216, .i32⟩ : BufTy).Contents (Elt F) → (⟨S16777216, .i1⟩ : BufTy).Contents (Elt F)),
    binary main_v8 main_v10 main_v13 (cmpf .ogt : (⟨S16777216, .f32⟩ : BufTy).Contents (Elt F) → (⟨S16777216, .f32⟩ : BufTy).Contents (Elt F) → (⟨S16777216, .i1⟩ : BufTy).Contents (Elt F)),
    binary main_v8 main_v10 main_v14 (cmpf .olt : (⟨S16777216, .f32⟩ : BufTy).Contents (Elt F) → (⟨S16777216, .f32⟩ : BufTy).Contents (Elt F) → (⟨S16777216, .i1⟩ : BufTy).Contents (Elt F)),
    TRef.ternary (TRef.of (T := ⟨S16777216, .i1⟩) main_v12) (TRef.of (T := ⟨S16777216, .i1⟩) main_v13) (TRef.of (T := ⟨S16777216, .i1⟩) main_v14) (TRef.of (T := ⟨S16777216, .i1⟩) main_v15) select,
    unary main_v15 main_v16 (uitofp .f32 : (⟨S16777216, .i1⟩ : BufTy).Contents (Elt F) → (⟨S16777216, .f32⟩ : BufTy).Contents (Elt F)),
    nullary main_cst_1 (constant S_ .f32 0x00000000#32),
    binary main_v16 main_cst_1 main_v17 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_2 (constant S_ .f32 0x4B800000#32),
    binary main_v17 main_cst_2 main_v18 (Host.divf : (⟨S_, .f32⟩ : BufTy).Contents (Elt F) → (⟨S_, .f32⟩ : BufTy).Contents (Elt F) → (⟨S_, .f32⟩ : BufTy).Contents (Elt F)) ]

end Cert.ReferenceIdeal.Stages

end
-- ==== Proof.LibTypedRead.lean ====
/-
  Host operations on typed references, read back at the value's type.

  A module-local function's operations are stated over typed references (`TRef sig T`: a buffer with a proof that its type
  is `T`), and read and write the buffer through the transport along that proof. Reading a buffer back through the same
  transport (`rd x W`: the contents `W` holds at `x`'s buffer, at the type `T`) undoes it: after a typed operation the
  result reference reads as the operation's function of its operands' typed reads, with no transport left, and every
  other reference reads as before. These are the operations' `result` facts restated for typed reads, for any function
  `f` — so that evaluating a list of typed operations never has to compare a transported term with an untransported one.
-/
import Idealize.ShloMosaic.Lib.StableHlo.Run

noncomputable section

namespace Idealize.ShloMosaic.StableHlo.TRef

open Idealize.ShloMosaic Idealize.ShloMosaic.StableHlo

variable {τ : Topo} {sig : RefSig} {Val : EltTy → Type}
variable {T Tx Ta Tb Tc Ty : BufTy}

/-- The contents `W` holds at a typed reference's buffer, at the value's type. -/
def rd (x : TRef sig T) (W : Valuation τ sig Val) : T.Contents Val := x.ofBuf (W (Proc.devRef .tc x.ref))

/-- Writing at the value's type and reading back is the identity. -/
theorem ofBuf_toBuf (x : TRef sig T) (z : T.Contents Val) : x.ofBuf (Val := Val) (x.toBuf z) = z := by
  obtain ⟨r, h, h2, h3⟩ := x
  subst h
  rfl

/-- A constant: its reference reads as the constant … -/
theorem rd_nullary (y : TRef sig Ty) (v : Ty.Contents Val) (W : Valuation τ sig Val) :
    rd y ((no_index (TRef.nullary (τ := τ) y v)).result W) = v :=
  (congrArg y.ofBuf (nullary_result y.ref (y.toBuf v) y.dev W)).trans (ofBuf_toBuf y v)
/-- … and every other reference as before. -/
theorem rd_nullary_ne (y : TRef sig Ty) (v : Ty.Contents Val) (z : TRef sig T) (W : Valuation τ sig Val) (h : z.ref ≠ y.ref) :
    rd z ((no_index (TRef.nullary (τ := τ) y v)).result W) = rd z W :=
  congrArg z.ofBuf (nullary_result_ne y.ref (y.toBuf v) y.dev W h)

/-- A one-operand operation: its result reads as the function of the operand's read. -/
theorem rd_unary (x : TRef sig Tx) (y : TRef sig Ty) (f : Tx.Contents Val → Ty.Contents Val) (W : Valuation τ sig Val) :
    rd y ((no_index (TRef.unary (τ := τ) x y f)).result W) = f (rd x W) :=
  (congrArg y.ofBuf (unary_result x.ref y.ref (fun u => y.toBuf (f (x.ofBuf u))) x.dev y.dev W)).trans (ofBuf_toBuf y _)
theorem rd_unary_ne (x : TRef sig Tx) (y : TRef sig Ty) (f : Tx.Contents Val → Ty.Contents Val) (z : TRef sig T)
    (W : Valuation τ sig Val) (h : z.ref ≠ y.ref) :
    rd z ((no_index (TRef.unary (τ := τ) x y f)).result W) = rd z W :=
  congrArg z.ofBuf (unary_result_ne x.ref y.ref (fun u => y.toBuf (f (x.ofBuf u))) x.dev y.dev W h)

/-- A two-operand operation. -/
theorem rd_binary (a : TRef sig Ta) (b : TRef sig Tb) (y : TRef sig Ty) (f : Ta.Contents Val → Tb.Contents Val → Ty.Contents Val)
    (W : Valuation τ sig Val) :
    rd y ((no_index (TRef.binary (τ := τ) a b y f)).result W) = f (rd a W) (rd b W) :=
  (congrArg y.ofBuf (binary_result a.ref b.ref y.ref (fun u v => y.toBuf (f (a.ofBuf u) (b.ofBuf v))) a.dev b.dev y.dev W)).trans
    (ofBuf_toBuf y _)
theorem rd_binary_ne (a : TRef sig Ta) (b : TRef sig Tb) (y : TRef sig Ty) (f : Ta.Contents Val → Tb.Contents Val → Ty.Contents Val)
    (z : TRef sig T) (W : Valuation τ sig Val) (h : z.ref ≠ y.ref) :
    rd z ((no_index (TRef.binary (τ := τ) a b y f)).result W) = rd z W :=
  congrArg z.ofBuf (binary_result_ne a.ref b.ref y.ref (fun u v => y.toBuf (f (a.ofBuf u) (b.ofBuf v))) a.dev b.dev y.dev W h)

/-- A three-operand operation. -/
theorem rd_ternary (c : TRef sig Tc) (a : TRef sig Ta) (b : TRef sig Tb) (y : TRef sig Ty)
    (f : Tc.Contents Val → Ta.Contents Val → Tb.Contents Val → Ty.Contents Val) (W : Valuation τ sig Val) :
    rd y ((no_index (TRef.ternary (τ := τ) c a b y f)).result W) = f (rd c W) (rd a W) (rd b W) :=
  (congrArg y.ofBuf (ternary_result c.ref a.ref b.ref y.ref (fun w u v => y.toBuf (f (c.ofBuf w) (a.ofBuf u) (b.ofBuf v)))
    c.dev a.dev b.dev y.dev W)).trans (ofBuf_toBuf y _)
theorem rd_ternary_ne (c : TRef sig Tc) (a : TRef sig Ta) (b : TRef sig Tb) (y : TRef sig Ty)
    (f : Tc.Contents Val → Ta.Contents Val → Tb.Contents Val → Ty.Contents Val) (z : TRef sig T) (W : Valuation τ sig Val)
    (h : z.ref ≠ y.ref) :
    rd z ((no_index (TRef.ternary (τ := τ) c a b y f)).result W) = rd z W :=
  congrArg z.ofBuf (ternary_result_ne a.ref b.ref c.ref y.ref (fun w u v => y.toBuf (f (c.ofBuf w) (a.ofBuf u) (b.ofBuf v)))
    c.dev a.dev b.dev y.dev W h)

end Idealize.ShloMosaic.StableHlo.TRef

end
-- ==== Proof.RefStages.lean ====
/-
  The reference program's operation list evaluated, stretch by stretch. The 59 operations are cut into five consecutive
  stretches; for each stretch and ANY buffer contents `W` before it, the buffers a later stretch reads are stated as
  functions of the few buffers the stretch itself reads (the log-softmax of the logits; the label index; the labelled
  column picked out of the log-softmax; the negated mean; the accuracy), and the buffers it does not write keep their
  contents. Chaining the five gives the two results as the last stages of the chain of stages read from the two
  argument buffers, and the argument buffers unchanged.
-/
import proofs.«420999_j1589137899697_3_alg».proof.Proof.RefOps
import proofs.«420999_j1589137899697_3_alg».proof.Proof.RefRead
import proofs.«420999_j1589137899697_3_alg».proof.Proof.LibTypedRead

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The operation list is the five stretches in a row. -/
theorem ops_split : (Cert.ReferenceIdeal.ValueP.ops (F := F)) = L1 ++ (L2 ++ (L3 ++ (L4 ++ L5))) := rfl

/-! ## Reading a buffer at its value's type is reading the buffer -/

theorem rd_arg0 (W : Valuation τ sig (Elt F)) :
    TRef.rd (TRef.of (T := ⟨S16777216x2, .f32⟩) main_arg0) W = W (Proc.devRef .tc main_arg0) := rfl
theorem rd_v0 (W : Valuation τ sig (Elt F)) :
    TRef.rd (TRef.of (T := ⟨S16777216x2, .f32⟩) main_v0) W = W (Proc.devRef .tc main_v0) := rfl
theorem rd_v5 (W : Valuation τ sig (Elt F)) :
    TRef.rd (TRef.of (T := ⟨S16777216x1x1, .i32⟩) main_call1_v5) W = W (Proc.devRef .tc main_call1_v5) := rfl
theorem rd_v2 (W : Valuation τ sig (Elt F)) :
    TRef.rd (TRef.of (T := ⟨S16777216x1, .f32⟩) main_v2) W = W (Proc.devRef .tc main_v2) := rfl

/-! ## Stretch 1: the log-softmax of the logits -/

theorem s1_v0 (W : Valuation τ sig (Elt F)) :
    after (L1 (F := F)) W (Proc.devRef .tc main_v0) = Cert.ReferenceIdeal.ReadP.val_main_v0 (F := F) (W (Proc.devRef .tc main_arg0)) := by
  refine (rd_v0 _).symm.trans ?_
  simp (disch := decide) only [L1, after_cons, after_nil, TRef.rd_nullary, TRef.rd_unary, TRef.rd_binary, TRef.rd_ternary, TRef.rd_nullary_ne, TRef.rd_unary_ne, TRef.rd_binary_ne, TRef.rd_ternary_ne]
  rw [rd_arg0]
  rfl
theorem s1_arg0 (W : Valuation τ sig (Elt F)) : after (L1 (F := F)) W (Proc.devRef .tc main_arg0) = W (Proc.devRef .tc main_arg0) := by
  after_results_simp
theorem s1_arg1 (W : Valuation τ sig (Elt F)) : after (L1 (F := F)) W (Proc.devRef .tc main_arg1) = W (Proc.devRef .tc main_arg1) := by
  after_results_simp

/-! ## Stretch 2: the label as a column index -/

theorem s2_v5 (W : Valuation τ sig (Elt F)) :
    after (L2 (F := F)) W (Proc.devRef .tc main_call1_v5) = Cert.ReferenceIdeal.ReadP.val_main_call1_v5 (F := F) (W (Proc.devRef .tc main_arg1)) := by
  after_results_simp
  rfl
theorem s2_v0 (W : Valuation τ sig (Elt F)) : after (L2 (F := F)) W (Proc.devRef .tc main_v0) = W (Proc.devRef .tc main_v0) := by
  after_results_simp
theorem s2_arg0 (W : Valuation τ sig (Elt F)) : after (L2 (F := F)) W (Proc.devRef .tc main_arg0) = W (Proc.devRef .tc main_arg0) := by
  after_results_simp
theorem s2_arg1 (W : Valuation τ sig (Elt F)) : after (L2 (F := F)) W (Proc.devRef .tc main_arg1) = W (Proc.devRef .tc main_arg1) := by
  after_results_simp

/-! ## Stretch 3: the labelled column picked out of the log-softmax -/

/-- The pick: where the index is inside `[0, 1]` the gathered entry, elsewhere the fill value. -/
def pick (x : (⟨S16777216x2, .f32⟩ : BufTy).Contents (Elt F)) (idx : (⟨S16777216x1x1, .i32⟩ : BufTy).Contents (Elt F)) :
    (⟨S16777216x1, .f32⟩ : BufTy).Contents (Elt F) :=
  select
    (Host.reduce IntOp.andi
      (andi (cmpi .sge idx (Cert.ReferenceIdeal.ReadP.val_main_call1_v6 (F := F))) (cmpi .sle idx (Cert.ReferenceIdeal.ReadP.val_main_call1_v9 (F := F))))
      (Cert.ReferenceIdeal.ReadP.val_main_call1_c_3 (F := F)) reducesTo_S16777216x1x1_S16777216x1_d2 h_S_)
    (Host.gather gather_S16777216x2_S16777216x1x1_S16777216x1_n_1_0_0_1_2_11 x idx)
    (Cert.ReferenceIdeal.ReadP.val_main_call1_v14 (F := F))

theorem pick_eq (x0 : (⟨S16777216x2, .f32⟩ : BufTy).Contents (Elt F)) (x1 : (⟨S16777216, .i32⟩ : BufTy).Contents (Elt F)) :
    Cert.ReferenceIdeal.ReadP.val_main_v2 (F := F) x0 x1 = pick (Cert.ReferenceIdeal.ReadP.val_main_v0 (F := F) x0) (Cert.ReferenceIdeal.ReadP.val_main_call1_v5 (F := F) x1) := rfl

theorem s3_v2 (W : Valuation τ sig (Elt F)) :
    after (L3 (F := F)) W (Proc.devRef .tc main_v2) = pick (W (Proc.devRef .tc main_v0)) (W (Proc.devRef .tc main_call1_v5)) := by
  refine (rd_v2 _).symm.trans ?_
  simp (disch := decide) only [L3, after_cons, after_nil, TRef.rd_nullary, TRef.rd_unary, TRef.rd_binary, TRef.rd_ternary, TRef.rd_nullary_ne, TRef.rd_unary_ne, TRef.rd_binary_ne, TRef.rd_ternary_ne]
  rw [rd_v0, rd_v5]
  rfl
theorem s3_arg0 (W : Valuation τ sig (Elt F)) : after (L3 (F := F)) W (Proc.devRef .tc main_arg0) = W (Proc.devRef .tc main_arg0) := by
  after_results_simp
theorem s3_arg1 (W : Valuation τ sig (Elt F)) : after (L3 (F := F)) W (Proc.devRef .tc main_arg1) = W (Proc.devRef .tc main_arg1) := by
  after_results_simp

/-! ## Stretch 4: the loss from the picked column: negated, summed, divided by the number of edges -/

def meanNeg (y : (⟨S16777216x1, .f32⟩ : BufTy).Contents (Elt F)) : (⟨S_, .f32⟩ : BufTy).Contents (Elt F) :=
  Host.divf
    (Host.reduceAdd (Host.negf (shapeCast _ y shapeCasts_S16777216x1_S16777216)) (Cert.ReferenceIdeal.ReadP.val_main_cst (F := F)) reducesTo_S16777216_S_d0 h_S_)
    (Cert.ReferenceIdeal.ReadP.val_main_cst_0 (F := F))

theorem meanNeg_eq (x0 : (⟨S16777216x2, .f32⟩ : BufTy).Contents (Elt F)) (x1 : (⟨S16777216, .i32⟩ : BufTy).Contents (Elt F)) :
    Cert.ReferenceIdeal.ReadP.val_main_v6 (F := F) x0 x1 = meanNeg (Cert.ReferenceIdeal.ReadP.val_main_v2 (F := F) x0 x1) := rfl

theorem s4_v6 (W : Valuation τ sig (Elt F)) :
    after (L4 (F := F)) W (Proc.devRef .tc main_v6) = meanNeg (W (Proc.devRef .tc main_v2)) := by
  after_results_simp
  rfl
theorem s4_arg0 (W : Valuation τ sig (Elt F)) : after (L4 (F := F)) W (Proc.devRef .tc main_arg0) = W (Proc.devRef .tc main_arg0) := by
  after_results_simp
theorem s4_arg1 (W : Valuation τ sig (Elt F)) : after (L4 (F := F)) W (Proc.devRef .tc main_arg1) = W (Proc.devRef .tc main_arg1) := by
  after_results_simp

/-! ## Stretch 5: the accuracy -/

theorem s5_v18 (W : Valuation τ sig (Elt F)) :
    after (L5 (F := F)) W (Proc.devRef .tc main_v18)
      = Cert.ReferenceIdeal.ReadP.val_main_v18 (F := F) (W (Proc.devRef .tc main_arg0)) (W (Proc.devRef .tc main_arg1)) := by
  after_results_simp
  rfl
theorem s5_v6 (W : Valuation τ sig (Elt F)) : after (L5 (F := F)) W (Proc.devRef .tc main_v6) = W (Proc.devRef .tc main_v6) := by
  after_results_simp
theorem s5_arg0 (W : Valuation τ sig (Elt F)) : after (L5 (F := F)) W (Proc.devRef .tc main_arg0) = W (Proc.devRef .tc main_arg0) := by
  after_results_simp
theorem s5_arg1 (W : Valuation τ sig (Elt F)) : after (L5 (F := F)) W (Proc.devRef .tc main_arg1) = W (Proc.devRef .tc main_arg1) := by
  after_results_simp

/-! ## The chain -/

/-- The loss: the first result buffer holds the loss stage of the two arguments. -/
theorem loss_eq (V : Valuation τ sig (Elt F)) :
    after (Cert.ReferenceIdeal.ValueP.ops (F := F)) V (Proc.devRef .tc main_v6)
      = Cert.ReferenceIdeal.ReadP.val_main_v6 (F := F) (V (Proc.devRef .tc main_arg0)) (V (Proc.devRef .tc main_arg1)) := by
  rw [ops_split, after_append, after_append, after_append, after_append,
    s5_v6, s4_v6, s3_v2, s2_v5, s2_v0, s1_v0, s1_arg1, meanNeg_eq, pick_eq]

/-- The accuracy: the second result buffer holds the accuracy stage of the two arguments. -/
theorem acc_eq (V : Valuation τ sig (Elt F)) :
    after (Cert.ReferenceIdeal.ValueP.ops (F := F)) V (Proc.devRef .tc main_v18)
      = Cert.ReferenceIdeal.ReadP.val_main_v18 (F := F) (V (Proc.devRef .tc main_arg0)) (V (Proc.devRef .tc main_arg1)) := by
  rw [ops_split, after_append, after_append, after_append, after_append,
    s5_v18, s4_arg0, s4_arg1, s3_arg0, s3_arg1, s2_arg0, s2_arg1, s1_arg0, s1_arg1]

/-- No operation writes an argument buffer. -/
theorem arg0_eq (V : Valuation τ sig (Elt F)) :
    after (Cert.ReferenceIdeal.ValueP.ops (F := F)) V (Proc.devRef .tc main_arg0) = V (Proc.devRef .tc main_arg0) := by
  rw [ops_split, after_append, after_append, after_append, after_append, s5_arg0, s4_arg0, s3_arg0, s2_arg0, s1_arg0]
theorem arg1_eq (V : Valuation τ sig (Elt F)) :
    after (Cert.ReferenceIdeal.ValueP.ops (F := F)) V (Proc.devRef .tc main_arg1) = V (Proc.devRef .tc main_arg1) := by
  rw [ops_split, after_append, after_append, after_append, after_append, s5_arg1, s4_arg1, s3_arg1, s2_arg1, s1_arg1]

end Cert.ReferenceIdeal.Stages

end
-- ==== Proof.RefValue.lean ====
/-
  The reference's two results are the specification's, at the extended reals.
  Loss: `log_softmax` shifts each row by its maximum `m`, so entry (e, k) is `(x[e,k] - m) - log (exp (x[e,0] - m) + exp (x[e,1] - m))`;
  `take_along_axis` picks column `l[e]` (a label 0 or 1 is in range, so no wrap and no fill); negated, that is
  `(m + log (…)) - x[e, l[e]]` over the reals — which needs the logits finite. The mean is the sum over the edges divided
  by their number. Accuracy: the selected comparison bit converted to 0.0 / 1.0 is the selection between 1.0 and 0.0.
-/
import proofs.«420999_j1589137899697_3_alg».proof.Proof.RefRead
import proofs.«420999_j1589137899697_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.PureOps.Ideal.Laws

noncomputable section

open scoped BigOperators

namespace Cert.Loss.Ref

open Idealize.ShloMosaic Idealize.ShloMosaic.ValueIdx
open Cert.ReferenceIdeal Cert.ReferenceIdeal.Gen

/-- A fold of a commutative, associative operation over two coordinates. -/
theorem fold_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from by decide, Finset.fold_insert (by decide), Finset.fold_singleton]

/-- A fold over one coordinate. -/
theorem fold_fin1 {α : Type} (op : α → α → α) [Std.Commutative op] [Std.Associative op] (b : α) (f : Fin 1 → α) :
    (Finset.univ : Finset (Fin 1)).fold op b f = op (f 0) b := by
  rw [show (Finset.univ : Finset (Fin 1)) = {0} from by decide, Finset.fold_singleton]

/-- The f32 word of minus infinity is the bottom of the extended reals. -/
theorem ofBits_ninf : Ideal.ofBits .f32 0xFF800000#32 = (⊥ : EReal) := by simp [Ideal.ofBits, Ideal.ieee]

/-- A maximum-reduction over the two columns, at row `e`: the larger of the row's two entries and the initial value. -/
theorem rowMax_apply (x : S16777216x2.Idx → EReal) (init : S_.Idx → EReal) (e : Fin 16777216) :
    Host.reduce (FloatOps.maximumf (F := Ideal) (φ := .f32)) x init reducesTo_S16777216x2_S16777216_d1 h_S_ (ix1 e)
      = max (x (ix2 e (0 : Fin 2))) (max (x (ix2 e (1 : Fin 2))) (init (Shape.Idx.first h_S_))) := by
  have hr : S16777216x2.Reduces [1] S16777216 := by decide
  refine (Host.reduce_eq_fold_single _ x init reducesTo_S16777216x2_S16777216_d1 hr h_S_ (ix1 e)).trans ?_
  refine (fold_fin2 _ _ _).trans ?_
  show max (x (hr.lift (ix1 e) (0 : Fin 2))) (max (x (hr.lift (ix1 e) (1 : Fin 2))) _) = _
  have h0 : hr.lift (ix1 e) (0 : Fin 2) = ix2 e (0 : Fin 2) := funext fun a => Fin.ext (by match a with | ⟨0, _⟩ => rfl | ⟨1, _⟩ => rfl)
  have h1 : hr.lift (ix1 e) (1 : Fin 2) = ix2 e (1 : Fin 2) := funext fun a => Fin.ext (by match a with | ⟨0, _⟩ => rfl | ⟨1, _⟩ => rfl)
  rw [h0, h1]

/-- An and-reduction over a unit axis, at (e, 0): the one element and the initial value. -/
theorem andRow_apply (x : S16777216x1x1.Idx → BitVec 1) (init : S_.Idx → BitVec 1) (e : Fin 16777216) :
    Host.reduce IntOp.andi x init reducesTo_S16777216x1x1_S16777216x1_d2 h_S_ (ix2 e (0 : Fin 1))
      = IntOp.andi (x (ix3 e (0 : Fin 1) (0 : Fin 1))) (init (Shape.Idx.first h_S_)) := by
  have hr : S16777216x1x1.Reduces [2] S16777216x1 := by decide
  refine (Host.reduce_eq_fold_single _ x init reducesTo_S16777216x1x1_S16777216x1_d2 hr h_S_ (ix2 e (0 : Fin 1))).trans ?_
  refine (fold_fin1 _ _ _).trans ?_
  show IntOp.andi (x (hr.lift (ix2 e (0 : Fin 1)) (0 : Fin 1))) _ = _
  have h0 : hr.lift (ix2 e (0 : Fin 1)) (0 : Fin 1) = ix3 e (0 : Fin 1) (0 : Fin 1) :=
    funext fun a => Fin.ext (by match a with | ⟨0, _⟩ => rfl | ⟨1, _⟩ => rfl | ⟨2, _⟩ => rfl)
  rw [h0]

/-- The gather whose batch axis is the edge reads, at (e, 0), row `e` of the operand in the column its start index names,
    the start index read signed and clamped to the two columns. -/
theorem gatherRow_idx {α : Type} (y : S16777216x2.Idx → α) (idx : IVec S16777216x1x1 32) (e : Fin 16777216) :
    Host.gather gather_S16777216x2_S16777216x1x1_S16777216x1_n_1_0_0_1_2_11 y idx (ix2 e (0 : Fin 1))
      = y (ix2 e (⟨min (idx (ix3 e (0 : Fin 1) (0 : Fin 1))).toInt.toNat 1, by omega⟩ : Fin 2)) := by
  unfold Host.gather
  refine congrArg y (funext fun a => Fin.ext ?_)
  match a with
  | ⟨0, _⟩ =>
    -- the batching axis: no start index, no offset; the batch coordinate is the result's first coordinate
    show GatherDims.start _ _ idx 0 + GatherDims.batchCoord _ _ 0 + GatherDims.offCoord _ _ 0 = e.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S16777216x2_S16777216x1x1_S16777216x1_n_1_0_0_1_2_11.operandBatchingDims from List.mem_singleton.mpr rfl)]
    unfold GatherDims.siCoord
    simp only [Nat.zero_add, Nat.add_zero, Fin.val_cast]
    exact congrArg (fun q => (ix2 e (0 : Fin 1) q).val) (show _ = (0 : Fin 2) from by decide)
  | ⟨1, _⟩ =>
    -- the collapsed, start-indexed axis: the clamped start index, no batch coordinate, no offset
    show GatherDims.start _ _ idx 1 + GatherDims.batchCoord _ _ 1 + GatherDims.offCoord _ _ 1 = min (idx (ix3 e (0 : Fin 1) (0 : Fin 1))).toInt.toNat 1
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin 2) ∈ gather_S16777216x2_S16777216x1x1_S16777216x1_n_1_0_0_1_2_11.startIndexMap from List.mem_singleton.mpr rfl)]
    have hsi : gather_S16777216x2_S16777216x1x1_S16777216x1_n_1_0_0_1_2_11.siIdx (ix2 e (0 : Fin 1))
        ⟨List.idxOf (1 : Fin 2) gather_S16777216x2_S16777216x1x1_S16777216x1_n_1_0_0_1_2_11.startIndexMap,
          List.idxOf_lt_length_iff.2 (List.mem_singleton.mpr rfl)⟩ = ix3 e (0 : Fin 1) (0 : Fin 1) := by
      funext b; refine Fin.ext ?_
      match b with
      | ⟨0, _⟩ => rfl
      | ⟨1, _⟩ => rfl
      | ⟨2, _⟩ => rfl
    rw [hsi]
    rfl

/-- The same with the clamp decided: column 0 when the start index reads 0, else column 1. -/
theorem gatherRow_apply {α : Type} (y : S16777216x2.Idx → α) (idx : IVec S16777216x1x1 32) (e : Fin 16777216) :
    Host.gather gather_S16777216x2_S16777216x1x1_S16777216x1_n_1_0_0_1_2_11 y idx (ix2 e (0 : Fin 1))
      = if (idx (ix3 e (0 : Fin 1) (0 : Fin 1))).toInt.toNat = 0 then y (ix2 e (0 : Fin 2)) else y (ix2 e (1 : Fin 2)) := by
  rw [gatherRow_idx]
  by_cases h : (idx (ix3 e (0 : Fin 1) (0 : Fin 1))).toInt.toNat = 0
  · rw [if_pos h]
    exact congrArg y (funext fun a => Fin.ext (by
      match a with
      | ⟨0, _⟩ => rfl
      | ⟨1, _⟩ => show min (idx (ix3 e (0 : Fin 1) (0 : Fin 1))).toInt.toNat 1 = 0; omega))
  · rw [if_neg h]
    exact congrArg y (funext fun a => Fin.ext (by
      match a with
      | ⟨0, _⟩ => rfl
      | ⟨1, _⟩ => show min (idx (ix3 e (0 : Fin 1) (0 : Fin 1))).toInt.toNat 1 = 1; omega))

/-- Over the reals the negated log-softmax entry of the column holding `c` is the log-sum-exp minus `c`: the two exponentials
    are positive reals, so is their sum, and its logarithm is a real. -/
theorem nll_real (a b c : ℝ) :
    -(((c : EReal) - max (a : EReal) (b : EReal))
        - Ideal.log (Ideal.ofBits .f32 0x00000000#32
            + (Ideal.exp ((a : EReal) - max (a : EReal) (b : EReal)) + Ideal.exp ((b : EReal) - max (a : EReal) (b : EReal)))))
      = Cert.Loss.lse a b - c := by
  unfold Cert.Loss.lse
  have hm : max (a : EReal) (b : EReal) = ((max a b : ℝ) : EReal) := (EReal.coe_strictMono.monotone.map_max).symm
  rw [Ideal.ofBits_zero_f32, zero_add, hm]
  simp only [← EReal.coe_sub, Ideal.exp_coe, ← EReal.coe_add]
  rw [Ideal.log_coe, if_neg (not_le.2 (add_pos (Real.exp_pos _) (Real.exp_pos _)))]
  simp only [← EReal.coe_sub, ← EReal.coe_add, ← EReal.coe_neg]
  congr 1
  ring

/-- A bit converted to f32 is the selection between 1.0 and 0.0. -/
theorem uitofp_bit (b : BitVec 1) :
    (FloatOps.uitofp (F := Ideal) .f32 b : EReal)
      = Scalar.select b (Ideal.ofBits .f32 0x3F800000#32) (Ideal.ofBits .f32 0x00000000#32) := by
  rcases BitVec.eq_zero_or_eq_one b with h | h
  · subst h
    rw [select_zero, Ideal.ofBits_zero_f32]
    show (((0#1 : BitVec 1).toNat : ℝ) : EReal) = 0
    simp
  · subst h
    rw [select_one, Ideal.ofBits_one_f32]
    show (((1#1 : BitVec 1).toNat : ℝ) : EReal) = 1
    simp

section Stages

variable (x : (⟨S16777216x2, .f32⟩ : BufTy).Contents (Elt Ideal)) (l : (⟨S16777216, .i32⟩ : BufTy).Contents (Elt Ideal))

/-- Row `e`'s maximum, as `log_softmax` takes it (a maximum with minus infinity changes nothing). -/
theorem rowMax_at (e : Fin 16777216) :
    ReadP.val_main_call0_v2 (F := Ideal) x (ix1 e) = max (x (ix2 e (0 : Fin 2))) (x (ix2 e (1 : Fin 2))) := by
  rw [ReadP.val_main_call0_v2_apply, ReadP.val_main_call0_v1_apply, ReadP.val_main_call0_cst_0_apply]
  unfold ReadP.val_main_call0_v0
  refine (congrArg (FloatOps.maximumf _) (rowMax_apply x _ e)).trans ?_
  rw [ReadP.val_main_call0_cst_apply]
  show max (Ideal.ofBits .f32 0xFF800000#32) (max _ (max _ (Ideal.ofBits .f32 0xFF800000#32))) = _
  rw [ofBits_ninf, max_bot_right, max_bot_left]

/-- The logit at (e, k) shifted by its row's maximum. -/
theorem shifted_at (e : Fin 16777216) (k : Fin 2) :
    ReadP.val_main_call0_v5 (F := Ideal) x (ix2 e k)
      = x (ix2 e k) - max (x (ix2 e (0 : Fin 2))) (x (ix2 e (1 : Fin 2))) := by
  rw [ReadP.val_main_call0_v5_apply, ReadP.val_main_call0_v4_apply, ReadP.val_main_call0_v3_apply]
  have hi : ReadP.idx_main_call0_v3 (ReadP.idx_main_call0_v4 (ix2 e k)) = ix1 e :=
    funext fun a => Fin.ext (by match a with | ⟨0, _⟩ => rfl)
  rw [hi, rowMax_at]
  rfl

/-- The sum of row `e`'s two exponentials, from the f32 zero. -/
theorem expSum_at (e : Fin 16777216) :
    ReadP.val_main_call0_v7 (F := Ideal) x (ix1 e)
      = Ideal.ofBits .f32 0x00000000#32
        + (Ideal.exp (x (ix2 e (0 : Fin 2)) - max (x (ix2 e (0 : Fin 2))) (x (ix2 e (1 : Fin 2))))
          + Ideal.exp (x (ix2 e (1 : Fin 2)) - max (x (ix2 e (0 : Fin 2))) (x (ix2 e (1 : Fin 2))))) := by
  rw [ReadP.val_main_call0_v7_apply, ReadP.val_main_call0_cst_1_apply, Fin.sum_univ_two,
    ReadP.val_main_call0_v6_apply, ReadP.val_main_call0_v6_apply]
  have h0 : ReadP.idx_main_call0_v7 (ix1 e) (0 : Fin 2) = ix2 e (0 : Fin 2) :=
    funext fun a => Fin.ext (by match a with | ⟨0, _⟩ => rfl | ⟨1, _⟩ => rfl)
  have h1 : ReadP.idx_main_call0_v7 (ix1 e) (1 : Fin 2) = ix2 e (1 : Fin 2) :=
    funext fun a => Fin.ext (by match a with | ⟨0, _⟩ => rfl | ⟨1, _⟩ => rfl)
  rw [h0, h1, shifted_at, shifted_at]
  rfl

/-- The log-softmax entry at (e, k). -/
theorem logSoftmax_at (e : Fin 16777216) (k : Fin 2) :
    ReadP.val_main_v0 (F := Ideal) x (ix2 e k)
      = (x (ix2 e k) - max (x (ix2 e (0 : Fin 2))) (x (ix2 e (1 : Fin 2))))
        - Ideal.log (Ideal.ofBits .f32 0x00000000#32
          + (Ideal.exp (x (ix2 e (0 : Fin 2)) - max (x (ix2 e (0 : Fin 2))) (x (ix2 e (1 : Fin 2))))
            + Ideal.exp (x (ix2 e (1 : Fin 2)) - max (x (ix2 e (0 : Fin 2))) (x (ix2 e (1 : Fin 2)))))) := by
  rw [ReadP.val_main_v0_apply, ReadP.val_main_call0_v10_apply, ReadP.val_main_call0_v9_apply, ReadP.val_main_call0_v8_apply]
  have hi : ReadP.idx_main_call0_v8 (ReadP.idx_main_call0_v10 (ix2 e k)) = ix1 e :=
    funext fun a => Fin.ext (by match a with | ⟨0, _⟩ => rfl)
  rw [hi, expSum_at, shifted_at]
  rfl

/-- A label 0 or 1 is not negative, so `take_along_axis` leaves it as it is: the start index at (e, 0, 0) is the label. -/
theorem startIdx_at (hlab : ∀ j, l j = 0#32 ∨ l j = 1#32) (e : Fin 16777216) :
    ReadP.val_main_call1_v5 (F := Ideal) l (ix3 e (0 : Fin 1) (0 : Fin 1)) = l (ix1 e) := by
  rw [ReadP.val_main_call1_v5_apply, ReadP.val_main_call1_v4_apply, ReadP.val_main_call1_v1_apply,
    ReadP.val_main_call1_v0_apply, ReadP.val_main_call1_c_apply, ReadP.val_main_v1_apply]
  have hi : ReadP.idx_main_v1 (ReadP.idx_main_call1_v5 (ix3 e (0 : Fin 1) (0 : Fin 1))) = ix1 e :=
    funext fun a => Fin.ext (by
      match a with
      | ⟨0, _⟩ => show ((e.val * 1 + 0) * 1 + 0) / 1 = e.val; omega)
  rw [hi]
  have hs : IntOp.cmpi .slt (l (ix1 e)) 0#32 = 0#1 := by
    rcases hlab (ix1 e) with h | h <;> rw [h] <;> decide
  rw [hs, select_zero]

/-- A label 0 or 1 lies in [0, 1]: the bounds bit at (e, 0) is set. -/
theorem inBounds_at (hlab : ∀ j, l j = 0#32 ∨ l j = 1#32) (e : Fin 16777216) :
    ReadP.val_main_call1_v12 (F := Ideal) l (ix2 e (0 : Fin 1)) = 1#1 := by
  unfold ReadP.val_main_call1_v12
  refine (andRow_apply _ _ e).trans ?_
  rw [ReadP.val_main_call1_c_3_apply, ReadP.val_main_call1_v11_apply, ReadP.val_main_call1_v7_apply,
    ReadP.val_main_call1_v10_apply, ReadP.val_main_call1_v6_apply, ReadP.val_main_call1_c_2_apply,
    ReadP.val_main_call1_v9_apply, ReadP.val_main_call1_v8_apply, ReadP.val_main_call1_c_1_apply, startIdx_at l hlab e]
  rcases hlab (ix1 e) with h | h <;> rw [h] <;> decide

/-- The gathered entry at (e, 0): the log-softmax entry of the label's column. -/
theorem taken_at (hlab : ∀ j, l j = 0#32 ∨ l j = 1#32) (e : Fin 16777216) :
    ReadP.val_main_call1_v13 (F := Ideal) x l (ix2 e (0 : Fin 1))
      = Scalar.select (IntOp.cmpi .eq (l (ix1 e)) 0#32)
          (ReadP.val_main_v0 (F := Ideal) x (ix2 e (0 : Fin 2))) (ReadP.val_main_v0 (F := Ideal) x (ix2 e (1 : Fin 2))) := by
  unfold ReadP.val_main_call1_v13
  refine (gatherRow_apply _ _ e).trans ?_
  rw [startIdx_at l hlab e]
  rcases hlab (ix1 e) with h | h
  · rw [h, if_pos (by decide), show IntOp.cmpi .eq (0#32) (0#32) = 1#1 from by decide, select_one]
  · rw [h, if_neg (by decide), show IntOp.cmpi .eq (1#32) (0#32) = 0#1 from by decide, select_zero]

/-- Edge `e`'s negated taken entry is its negative log-likelihood. -/
theorem nll_at (hfin : ∀ i, ∃ r : ℝ, x i = (r : EReal)) (hlab : ∀ j, l j = 0#32 ∨ l j = 1#32) (e : Fin 16777216) :
    ReadP.val_main_v4 (F := Ideal) x l (ix1 e) = Cert.Loss.nllAt x l e := by
  rw [ReadP.val_main_v4_apply, ReadP.val_main_v3_apply]
  have hi : ReadP.idx_main_v3 (ix1 e) = ix2 e (0 : Fin 1) :=
    funext fun a => Fin.ext (by
      match a with
      | ⟨0, _⟩ => exact Nat.div_one _
      | ⟨1, _⟩ => rfl)
  rw [hi, ReadP.val_main_v2_apply, inBounds_at l hlab e, select_one, taken_at x l hlab e, logSoftmax_at, logSoftmax_at]
  obtain ⟨ra, ha⟩ := hfin (ix2 e (0 : Fin 2))
  obtain ⟨rb, hb⟩ := hfin (ix2 e (1 : Fin 2))
  unfold Cert.Loss.nllAt Cert.Loss.nll
  rw [ha, hb]
  rcases BitVec.eq_zero_or_eq_one (IntOp.cmpi .eq (l (ix1 e)) 0#32) with h | h <;> rw [h]
  · rw [select_zero, select_zero]; exact nll_real ra rb rb
  · rw [select_one, select_one]; exact nll_real ra rb ra

/-- Edge `e`'s converted comparison bit is its hit. -/
theorem hit_at (e : Fin 16777216) :
    ReadP.val_main_v16 (F := Ideal) x l (ix1 e) = Cert.Loss.hitAt x l e := by
  rw [ReadP.val_main_v16_apply, ReadP.val_main_v15_apply, ReadP.val_main_v12_apply, ReadP.val_main_v11_apply,
    ReadP.val_main_c_apply, ReadP.val_main_v13_apply, ReadP.val_main_v14_apply, ReadP.val_main_v8_apply,
    ReadP.val_main_v10_apply, ReadP.val_main_v7_apply, ReadP.val_main_v9_apply]
  have h0 : ReadP.idx_main_v7 (ReadP.idx_main_v8 (ix1 e)) = ix2 e (0 : Fin 2) :=
    funext fun a => Fin.ext (by
      match a with
      | ⟨0, _⟩ => exact Nat.div_one _
      | ⟨1, _⟩ => rfl)
  have h1 : ReadP.idx_main_v9 (ReadP.idx_main_v10 (ix1 e)) = ix2 e (1 : Fin 2) :=
    funext fun a => Fin.ext (by
      match a with
      | ⟨0, _⟩ => exact Nat.div_one _
      | ⟨1, _⟩ => rfl)
  rw [h0, h1, uitofp_bit]
  unfold Cert.Loss.hitAt Cert.Loss.hit
  rcases BitVec.eq_zero_or_eq_one (IntOp.cmpi .eq (l (ix1 e)) 0#32) with h | h <;> rw [h]
  · rw [select_zero, select_zero]; rfl
  · rw [select_one, select_one]; rfl

end Stages

/-- The reference's loss is the specification's when every logit is finite and every label is 0 or 1. -/
theorem ref_loss (x : (⟨S16777216x2, .f32⟩ : BufTy).Contents (Elt Ideal)) (l : (⟨S16777216, .i32⟩ : BufTy).Contents (Elt Ideal))
    (hfin : ∀ i, ∃ r : ℝ, x i = (r : EReal)) (hlab : ∀ j, l j = 0#32 ∨ l j = 1#32) :
    Cert.ReferenceIdeal.ReadP.val_main_v6 (F := Ideal) x l = Cert.Loss.lossOut x l := by
  funext i
  rw [ReadP.val_main_v6_apply, ReadP.val_main_cst_0_apply, ReadP.val_main_v5_apply, ReadP.val_main_cst_apply]
  -- the sum over the rank-1 indices is the sum over the edges
  have hsum : ∑ j : S16777216.Idx, ReadP.val_main_v4 (F := Ideal) x l j = Cert.Loss.lossSum x l :=
    ((Equiv.sum_comp (idxEquiv1 (n := 16777216)).symm (fun j => ReadP.val_main_v4 (F := Ideal) x l j)).symm).trans
      (Finset.sum_congr rfl fun e _ => nll_at x l hfin hlab e)
  rw [hsum]
  show Ideal.div (Ideal.ofBits .f32 0x00000000#32 + Cert.Loss.lossSum x l) _ = _
  rw [Ideal.ofBits_zero_f32, zero_add]
  rfl

/-- The reference's accuracy is the specification's (at every input). -/
theorem ref_acc (x : (⟨S16777216x2, .f32⟩ : BufTy).Contents (Elt Ideal)) (l : (⟨S16777216, .i32⟩ : BufTy).Contents (Elt Ideal)) :
    Cert.ReferenceIdeal.ReadP.val_main_v18 (F := Ideal) x l = Cert.Loss.accOut x l := by
  funext i
  rw [ReadP.val_main_v18_apply, ReadP.val_main_cst_2_apply, ReadP.val_main_v17_apply, ReadP.val_main_cst_1_apply]
  have hsum : ∑ j : S16777216.Idx, ReadP.val_main_v16 (F := Ideal) x l j = Cert.Loss.hitSum x l :=
    ((Equiv.sum_comp (idxEquiv1 (n := 16777216)).symm (fun j => ReadP.val_main_v16 (F := Ideal) x l j)).symm).trans
      (Finset.sum_congr rfl fun e _ => hit_at x l e)
  rw [hsum]
  show Ideal.div (Ideal.ofBits .f32 0x00000000#32 + Cert.Loss.hitSum x l) _ = _
  rw [Ideal.ofBits_zero_f32, zero_add]
  rfl

end Cert.Loss.Ref

end
-- ==== Proof.PreDecode.lean ====
/-
  The precondition read back: "every logit is finite and every label is 0 or 1". The printed predicate is the `and` of
  two `all`s — `|x| < +inf` at every entry of the logits, and `0 ≤ l ∧ l < 2` (signed) at every label — and the claim
  assumes it is 1; so every logit is a real number and every label word is 0 or 1.
-/
import proofs.«420999_j1589137899697_3_alg».proof.Pre_finite_inputs
import proofs.«420999_j1589137899697_3_alg».proof.Proof.Gen.Pre_finite_inputs
import Idealize.ShloMosaic.PureOps.Ideal
import Idealize.ShloMosaic.Lib.ReduceAll
import Idealize.ShloMosaic.Lib.IdealHost
import Idealize.ShloMosaic.Lib.StableHlo.Predicate
import Idealize.ShloMosaic.Lib.ValueIdx

noncomputable section

namespace Cert.Loss.Pre

open Idealize.ShloMosaic Idealize.ShloMosaic.ValueIdx

/-- The scalar shape has one index. -/
instance : Subsingleton Cert.Pre_finite_inputs.S_.Idx := ⟨fun a b => funext fun d => d.elim0⟩

/-- The f32 word `0x7F800000` (sign 0, exponent all ones, fraction 0) is the top of the extended reals. -/
theorem ofBits_inf : Ideal.ofBits .f32 0x7F800000#32 = (⊤ : EReal) := by
  simp [Ideal.ofBits, Ideal.ieee]

/-- An extended real whose absolute value `max a (-a)` is below the top is a real number: at either infinity the
    absolute value is the top. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- A 32-bit word that is at least 0 and below 2, both read signed, is the word 0 or the word 1: signed-nonnegative
    makes its signed and unsigned readings agree, so its unsigned reading is below 2. -/
theorem word_zero_or_one (w : BitVec 32) (h0 : IntOp.cmpi .sge w 0#32 = 1#1) (h2 : IntOp.cmpi .slt w 2#32 = 1#1) :
    w = 0#32 ∨ w = 1#32 := by
  rw [IntOp.cmpi_sge] at h0
  rw [IntOp.cmpi_slt] at h2
  have e0 : (0#32 : BitVec 32).toInt = 0 := by decide
  have e2 : (2#32 : BitVec 32).toInt = 2 := by decide
  rw [e0] at h0
  rw [e2] at h2
  have hc := BitVec.toInt_eq_toNat_cond w
  have hl := w.isLt
  have hn : w.toNat < 2 := by split at hc <;> omega
  have hw : w.toNat = 0 ∨ w.toNat = 1 := by omega
  rcases hw with hw | hw
  · exact Or.inl (BitVec.eq_of_toNat_eq (by rw [hw]; rfl))
  · exact Or.inr (BitVec.eq_of_toNat_eq (by rw [hw]; rfl))

/-- Under the precondition every logit is a real number and every label is the word 0 or the word 1. -/
theorem decode [Cert.Pre_finite_inputs.Facts] (x : FVec Ideal Cert.Pre_finite_inputs.S16777216x2 .f32)
    (l : IVec Cert.Pre_finite_inputs.S16777216 32)
    (h : Cert.Pre_finite_inputs.fn (F := Ideal) x l = fun _ => 1#1) :
    (∀ i, ∃ r : ℝ, x i = (r : EReal)) ∧ (∀ j, l j = 0#32 ∨ l j = 1#32) := by
  -- the one element of the result, with the function's chain of operations laid open
  have h0 := congrFun h ValueIdx.ix0
  dsimp only [Cert.Pre_finite_inputs.fn] at h0
  -- the final `and` is 1: both `all`s are 1
  obtain ⟨hA, hB⟩ := IntOp.andi_eq_one.1 h0
  refine ⟨fun i => ?_, fun j => ?_⟩
  · -- the first `all` at entry `i`: |x i| < +inf
    have hi := Host.reduce_andi_all _ _ _ _ _ hA i
    have e : broadcastInDim Cert.Pre_finite_inputs.S16777216x2 ![] Cert.Pre_finite_inputs.Facts.bcast_S_S16777216x2
        (constant (F := Ideal) Cert.Pre_finite_inputs.S_ .f32 0x7F800000#32) i = (⊤ : EReal) :=
      (broadcastInDim_scalar_apply _ _ i).trans ofBits_inf
    have key : Ideal.cmp .olt (max (x i) (-(x i))) (⊤ : EReal) = 1#1 := by
      rw [← e]; exact hi
    simp only [Ideal.cmp, StableHlo.Predicate.ofBool_eq_one_iff, decide_eq_true_eq] at key
    exact real_of_abs_lt_top (x i) key
  · -- the second `all` at label `j`: 0 ≤ l j and l j < 2, signed
    have hj := Host.reduce_andi_all _ _ _ _ _ hB j
    obtain ⟨h1, h2⟩ := IntOp.andi_eq_one.1 hj
    have c0 : broadcastInDim Cert.Pre_finite_inputs.S16777216 ![] Cert.Pre_finite_inputs.Facts.bcast_S_S16777216
        (constantI Cert.Pre_finite_inputs.S_ 32 0#32) j = 0#32 := broadcastInDim_scalar_apply _ _ j
    have c2 : broadcastInDim Cert.Pre_finite_inputs.S16777216 ![] Cert.Pre_finite_inputs.Facts.bcast_S_S16777216
        (constantI Cert.Pre_finite_inputs.S_ 32 2#32) j = 2#32 := broadcastInDim_scalar_apply _ _ j
    have g0 : IntOp.cmpi .sge (l j) 0#32 = 1#1 := by rw [← c0]; exact h1
    have g2 : IntOp.cmpi .slt (l j) 2#32 = 1#1 := by rw [← c2]; exact h2
    exact word_zero_or_one (l j) g0 g2

end Cert.Loss.Pre

end
-- ==== Proof.lean ====
/-
  The certificate: a two-class cross-entropy loss and an accuracy over E = 16777216 edges, computed by a kernel that
  streams the edges in 1024 blocks of 128 × 128 and accumulates two running sums per half of the grid, against the
  plain reference (log-softmax, the labelled column picked out, the mean; the selected comparison, the mean).

  Over the extended reals both programs compute, under the precondition (every logit finite, every label 0 or 1),
    loss     = (∑ₑ nll(x[e,0], x[e,1], l[e])) / E,        nll a b lb = (max a b + log (exp (a - max a b) + exp (b - max a b))) - (a if lb = 0 else b),
    accuracy = (∑ₑ hit(x[e,0], x[e,1], l[e])) / E,        hit a b lb = [a > b] if lb = 0 else [a < b].
  The kernel side needs no hypothesis: each block's sums are added to an accumulator that is reset at the first step of
  a half, the half's last step writes the total to entry (0, 0) of the half's output block, and the host adds the two
  halves and divides by E; sums over a commutative monoid regroup freely, so that is the sum over all edges.
  The reference side is where the precondition is used: with real logits, `-((x - m) - log s) = (m + log s) - x`, and a
  label 0 or 1 is a valid column, so the gathered entry is the labelled one (no wrap-around, no fill value).
  The three frames: the two kernel programs' are the generated frame certificates; the reference's is its run with the
  results dropped. The idealization rewrote nothing, so `preserves` is trivial.
-/
import proofs.«420999_j1589137899697_3_alg».proof.Defs
import proofs.«420999_j1589137899697_3_alg».proof.Proof.Gen.Kernel
import proofs.«420999_j1589137899697_3_alg».proof.Proof.Gen.Kernel.Skeleton
import proofs.«420999_j1589137899697_3_alg».proof.Proof.Gen.Kernel.Launch
import proofs.«420999_j1589137899697_3_alg».proof.Proof.Gen.Kernel.Points
import proofs.«420999_j1589137899697_3_alg».proof.Proof.Gen.Kernel.Frame
import proofs.«420999_j1589137899697_3_alg».proof.Proof.Gen.KernelIdeal
import proofs.«420999_j1589137899697_3_alg».proof.Proof.Gen.KernelIdeal.Skeleton
import proofs.«420999_j1589137899697_3_alg».proof.Proof.Gen.KernelIdeal.Launch
import proofs.«420999_j1589137899697_3_alg».proof.Proof.Gen.KernelIdeal.Points
import proofs.«420999_j1589137899697_3_alg».proof.Proof.Gen.KernelIdeal.Frame
import proofs.«420999_j1589137899697_3_alg».proof.Proof.Gen.ReferenceIdeal
import proofs.«420999_j1589137899697_3_alg».proof.Proof.Gen.Pre_finite_inputs
import proofs.«420999_j1589137899697_3_alg».proof.Proof.KTail
import proofs.«420999_j1589137899697_3_alg».proof.Proof.RefStages
import proofs.«420999_j1589137899697_3_alg».proof.Proof.RefValue
import proofs.«420999_j1589137899697_3_alg».proof.Proof.PreDecode
import Idealize.ShloMosaic.Adequacy
import Idealize.ShloMosaic.Init

noncomputable section

namespace Cert.Proof

open Idealize.ShloMosaic Idealize.ShloMosaic.TcCoe Idealize.SL.Sem

/-- The two kernel programs run, fault-free, and leave their arguments unchanged: the generated frame certificates. -/
theorem frame_k : Cert.frame_Kernel := fun m ρ _ => Cert.Kernel.Gen.frame m ρ
theorem frame_ki : Cert.frame_KernelIdeal := fun m ρ _ => Cert.KernelIdeal.Gen.frame m ρ

/-- The reference runs and no operation of it writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.Stages.arg0_eq _),
      (h c Cert.ReferenceIdeal.main_arg1).trans (Cert.ReferenceIdeal.Stages.arg1_eq _)⟩)
    (Cert.ReferenceIdeal.ValueP.run (F := Ideal) m ρ)

/-- The ideal pass rewrote no operation. -/
theorem preserves : Cert.preserves_Kernel_KernelIdeal := trivial

/-- Both programs end with the specification's loss and accuracy of the (agreeing) arguments. -/
theorem algebraic : Cert.algebraic_KernelIdeal_ReferenceIdeal := by
  intro m ρ m' ρ' hpre hagree
  refine ⟨_, _, Cert.KernelIdeal.Val.run m ρ, ?_⟩
  refine (θ_run Cert.ReferenceIdeal.defs _ _).mono (fun _ h c => ?_) (Cert.ReferenceIdeal.ValueP.run (F := Ideal) m' ρ')
  obtain ⟨hfin, hlab⟩ := Cert.Loss.Pre.decode _ _ (hpre c)
  refine ⟨?_, ?_, ?_, ?_⟩
  · refine (h c Cert.ReferenceIdeal.main_v6).trans ((Cert.ReferenceIdeal.Stages.loss_eq _).trans ?_)
    show Cert.ReferenceIdeal.ReadP.val_main_v6 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
    exact Cert.Loss.Ref.ref_loss _ _ hfin hlab
  · refine (h c Cert.ReferenceIdeal.main_v18).trans ((Cert.ReferenceIdeal.Stages.acc_eq _).trans ?_)
    show Cert.ReferenceIdeal.ReadP.val_main_v18 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
    exact Cert.Loss.Ref.ref_acc _ _
  · exact (h c Cert.ReferenceIdeal.main_arg0).trans (Cert.ReferenceIdeal.Stages.arg0_eq _)
  · exact (h c Cert.ReferenceIdeal.main_arg1).trans (Cert.ReferenceIdeal.Stages.arg1_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
